-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x32000 : Shape := ⟨3, ![2, 2048, 32000]⟩
abbrev S2x2048 : Shape := ⟨2, ![2, 2048]⟩
abbrev S_ : Shape := ⟨0, ![]⟩

class Facts : Prop where
  bcast_S_S2x2048x32000 : S_.BroadcastsInDim S2x2048x32000 (![] : Fin 0 → Fin S2x2048x32000.rank)
  reducesTo_S2x2048x32000_S_d0_1_2 : S2x2048x32000.ReducesTo [0, 1, 2] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S2x2048x32000 .f32) (main_arg1 : IVec S2x2048 32) : IVec S_ 1 :=
  let main_v0 : FVec F S2x2048x32000 .f32 := Host.absf main_arg0
  let main_cst : FVec F S_ .f32 := constant S_ .f32 0x7F800000#32
  let main_v1 : FVec F S2x2048x32000 .f32 := broadcastInDim S2x2048x32000 ![] bcast_S_S2x2048x32000 main_cst
  let main_v2 : IVec S2x2048x32000 1 := cmpf .olt main_v0 main_v1
  let main_c : IVec S_ 1 := constantI S_ 1 1#1
  let main_v3 : IVec S_ 1 := (fun x v => Host.reduce IntOp.andi x v reducesTo_S2x2048x32000_S_d0_1_2 h_S_) main_v2 main_c
  let main_c_0 : IVec S_ 32 := constantI S_ 32 4294935296#32
  let main_v4 : IVec S2x2048 32 := broadcastInDim S2x2048 ![] bcast_S_S2x2048 main_c_0
  let main_v5 : IVec S2x2048 1 := cmpi .sge main_arg1 main_v4
  let main_c_1 : IVec S_ 32 := constantI S_ 32 32000#32
  let main_v6 : IVec S2x2048 32 := broadcastInDim S2x2048 ![] bcast_S_S2x2048 main_c_1
  let main_v7 : IVec S2x2048 1 := cmpi .slt main_arg1 main_v6
  let main_v8 : IVec S2x2048 1 := andi main_v5 main_v7
  let main_c_2 : IVec S_ 1 := constantI S_ 1 1#1
  let main_v9 : IVec S_ 1 := (fun x v => Host.reduce IntOp.andi x v reducesTo_S2x2048_S_d0_1 h_S_) main_v8 main_c_2
  let main_v10 : IVec S_ 1 := andi main_v3 main_v9
  main_v10
-- ==== Kernel.lean ====
abbrev S2x2048x32000 : Shape := ⟨3, ![2, 2048, 32000]⟩
abbrev S2x2048 : Shape := ⟨2, ![2, 2048]⟩
abbrev S4096x32000 : Shape := ⟨2, ![4096, 32000]⟩
abbrev S4096x1 : Shape := ⟨2, ![4096, 1]⟩
abbrev S64x32000 : Shape := ⟨2, ![64, 32000]⟩
abbrev S64x1 : Shape := ⟨2, ![64, 1]⟩
abbrev S64 : Shape := ⟨1, ![64]⟩
abbrev S2x2038 : Shape := ⟨2, ![2, 2038]⟩
abbrev S2038 : Shape := ⟨1, ![2038]⟩
abbrev S2038x1 : Shape := ⟨2, ![2038, 1]⟩
abbrev S10 : Shape := ⟨1, ![10]⟩
abbrev S1x10 : Shape := ⟨2, ![1, 10]⟩
abbrev S2038x10 : Shape := ⟨2, ![2038, 10]⟩
abbrev S_ : Shape := ⟨0, ![]⟩
abbrev S2038x10x1 : Shape := ⟨3, ![2038, 10, 1]⟩
abbrev S2x2038x10 : Shape := ⟨3, ![2, 2038, 10]⟩
abbrev S2x2038x32000 : Shape := ⟨3, ![2, 2038, 32000]⟩
abbrev S2x2038x10x1 : Shape := ⟨4, ![2, 2038, 10, 1]⟩
abbrev S1 : Shape := ⟨1, ![1]⟩
abbrev S1x1x1x1 : Shape := ⟨4, ![1, 1, 1, 1]⟩
abbrev S2x2038x1 : Shape := ⟨3, ![2, 2038, 1]⟩
abbrev S2x2038x1x10 : Shape := ⟨4, ![2, 2038, 1, 10]⟩
abbrev S2x2038x10x10 : Shape := ⟨4, ![2, 2038, 10, 10]⟩
abbrev S10x10 : Shape := ⟨2, ![10, 10]⟩
abbrev S1x1x10x10 : Shape := ⟨4, ![1, 1, 10, 10]⟩

abbrev nBuf : Space → Nat
  | .hbm => 88
  | .vmem => 6
  | .smem => 0
  | _ => 0

abbrev bufTy : (tb : Table) → Fin (tcTables nBuf tb) → BufTy
  | .hbm, ⟨0, _⟩ => ⟨S2x2048x32000, .f32⟩
  | .hbm, ⟨1, _⟩ => ⟨S2x2048, .i32⟩
  | .hbm, ⟨2, _⟩ => ⟨S4096x32000, .f32⟩
  | .hbm, ⟨3, _⟩ => ⟨S4096x1, .f32⟩
  | .hbm, ⟨4, _⟩ => ⟨S4096x1, .f32⟩
  | .hbm, ⟨5, _⟩ => ⟨S2x2048, .f32⟩
  | .hbm, ⟨6, _⟩ => ⟨S2x2048, .f32⟩
  | .hbm, ⟨7, _⟩ => ⟨S2x2038, .f32⟩
  | .hbm, ⟨8, _⟩ => ⟨S2x2038, .f32⟩
  | .hbm, ⟨9, _⟩ => ⟨S2038, .i32⟩
  | .hbm, ⟨10, _⟩ => ⟨S2038x1, .i32⟩
  | .hbm, ⟨11, _⟩ => ⟨S10, .i32⟩
  | .hbm, ⟨12, _⟩ => ⟨S1x10, .i32⟩
  | .hbm, ⟨13, _⟩ => ⟨S2038x10, .i32⟩
  | .hbm, ⟨14, _⟩ => ⟨S2038x10, .i32⟩
  | .hbm, ⟨15, _⟩ => ⟨S2038x10, .i32⟩
  | .hbm, ⟨16, _⟩ => ⟨S_, .i32⟩
  | .hbm, ⟨17, _⟩ => ⟨S2038x10, .i32⟩
  | .hbm, ⟨18, _⟩ => ⟨S2038x10, .i1⟩
  | .hbm, ⟨19, _⟩ => ⟨S_, .i32⟩
  | .hbm, ⟨20, _⟩ => ⟨S2038x10, .i32⟩
  | .hbm, ⟨21, _⟩ => ⟨S2038x10, .i32⟩
  | .hbm, ⟨22, _⟩ => ⟨S2038x10, .i32⟩
  | .hbm, ⟨23, _⟩ => ⟨S2038x10x1, .i32⟩
  | .hbm, ⟨24, _⟩ => ⟨S2x2038x10, .i32⟩
  | .hbm, ⟨25, _⟩ => ⟨S2x2038x32000, .f32⟩
  | .hbm, ⟨26, _⟩ => ⟨S_, .i32⟩
  | .hbm, ⟨27, _⟩ => ⟨S2x2038x10, .i32⟩
  | .hbm, ⟨28, _⟩ => ⟨S2x2038x10, .i1⟩
  | .hbm, ⟨29, _⟩ => ⟨S_, .i32⟩
  | .hbm, ⟨30, _⟩ => ⟨S2x2038x10, .i32⟩
  | .hbm, ⟨31, _⟩ => ⟨S2x2038x10, .i32⟩
  | .hbm, ⟨32, _⟩ => ⟨S2x2038x10, .i32⟩
  | .hbm, ⟨33, _⟩ => ⟨S2x2038x10x1, .i32⟩
  | .hbm, ⟨34, _⟩ => ⟨S1, .i32⟩
  | .hbm, ⟨35, _⟩ => ⟨S_, .i32⟩
  | .hbm, ⟨36, _⟩ => ⟨S2x2038x10x1, .i32⟩
  | .hbm, ⟨37, _⟩ => ⟨S2x2038x10x1, .i1⟩
  | .hbm, ⟨38, _⟩ => ⟨S1x1x1x1, .i32⟩
  | .hbm, ⟨39, _⟩ => ⟨S2x2038x10x1, .i32⟩
  | .hbm, ⟨40, _⟩ => ⟨S2x2038x10x1, .i1⟩
  | .hbm, ⟨41, _⟩ => ⟨S2x2038x10x1, .i1⟩
  | .hbm, ⟨42, _⟩ => ⟨S_, .i1⟩
  | .hbm, ⟨43, _⟩ => ⟨S2x2038x10, .i1⟩
  | .hbm, ⟨44, _⟩ => ⟨S2x2038x10, .f32⟩
  | .hbm, ⟨45, _⟩ => ⟨S_, .f32⟩
  | .hbm, ⟨46, _⟩ => ⟨S2x2038x10, .f32⟩
  | .hbm, ⟨47, _⟩ => ⟨S2x2038x10, .f32⟩
  | .hbm, ⟨48, _⟩ => ⟨S_, .f32⟩
  | .hbm, ⟨49, _⟩ => ⟨S2x2038, .f32⟩
  | .hbm, ⟨50, _⟩ => ⟨S2x2038, .f32⟩
  | .hbm, ⟨51, _⟩ => ⟨S2x2038x1, .f32⟩
  | .hbm, ⟨52, _⟩ => ⟨S2x2038x10, .f32⟩
  | .hbm, ⟨53, _⟩ => ⟨S2x2038x10, .f32⟩
  | .hbm, ⟨54, _⟩ => ⟨S2x2038x10, .f32⟩
  | .hbm, ⟨55, _⟩ => ⟨S2x2038x1, .f32⟩
  | .hbm, ⟨56, _⟩ => ⟨S2x2038x10, .f32⟩
  | .hbm, ⟨57, _⟩ => ⟨S2x2038x10, .f32⟩
  | .hbm, ⟨58, _⟩ => ⟨S2x2038x10x1, .i32⟩
  | .hbm, ⟨59, _⟩ => ⟨S2x2038x1x10, .i32⟩
  | .hbm, ⟨60, _⟩ => ⟨S2x2038x10x10, .i32⟩
  | .hbm, ⟨61, _⟩ => ⟨S2x2038x10x10, .i32⟩
  | .hbm, ⟨62, _⟩ => ⟨S2x2038x10x10, .i1⟩
  | .hbm, ⟨63, _⟩ => ⟨S_, .i1⟩
  | .hbm, ⟨64, _⟩ => ⟨S10x10, .i1⟩
  | .hbm, ⟨65, _⟩ => ⟨S10x10, .i32⟩
  | .hbm, ⟨66, _⟩ => ⟨S_, .i32⟩
  | .hbm, ⟨67, _⟩ => ⟨S10x10, .i32⟩
  | .hbm, ⟨68, _⟩ => ⟨S10x10, .i32⟩
  | .hbm, ⟨69, _⟩ => ⟨S10x10, .i32⟩
  | .hbm, ⟨70, _⟩ => ⟨S10x10, .i1⟩
  | .hbm, ⟨71, _⟩ => ⟨S_, .i1⟩
  | .hbm, ⟨72, _⟩ => ⟨S10x10, .i1⟩
  | .hbm, ⟨73, _⟩ => ⟨S10x10, .i1⟩
  | .hbm, ⟨74, _⟩ => ⟨S1x1x10x10, .i1⟩
  | .hbm, ⟨75, _⟩ => ⟨S2x2038x10x10, .i1⟩
  | .hbm, ⟨76, _⟩ => ⟨S2x2038x10x10, .i1⟩
  | .hbm, ⟨77, _⟩ => ⟨S_, .i1⟩
  | .hbm, ⟨78, _⟩ => ⟨S2x2038x10, .i1⟩
  | .hbm, ⟨79, _⟩ => ⟨S2x2038x10, .i1⟩
  | .hbm, ⟨80, _⟩ => ⟨S2x2038x10, .f32⟩
  | .hbm, ⟨81, _⟩ => ⟨S2x2038x10, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .local _ .vmem, ⟨0, _⟩ => ⟨S64x32000, .f32⟩
  | .local _ .vmem, ⟨1, _⟩ => ⟨S64x32000, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | _, _ => ⟨S2x2048x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_cst : Ref sig .tc := ⟨.hbm, 45, rfl⟩
abbrev main_call0_v14 : Ref sig .tc := ⟨.hbm, 46, rfl⟩
abbrev main_v21 : Ref sig .tc := ⟨.hbm, 47, rfl⟩
abbrev main_cst : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_1 : Ref sig .tc := ⟨.hbm, 63, rfl⟩
abbrev main_v36 : Ref sig .tc := ⟨.hbm, 64, rfl⟩
abbrev main_call1_v0 : Ref sig .tc := ⟨.hbm, 65, rfl⟩
abbrev main_call1_c : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_c_0 : Ref sig .tc := ⟨.hbm, 71, rfl⟩
abbrev main_call1_v5 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_2 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_3 : Ref sig .tc := ⟨.hbm, 82, rfl⟩
abbrev main_v45 : Ref sig .tc := ⟨.hbm, 83, rfl⟩
abbrev main_cst_4 : Ref sig .tc := ⟨.hbm, 84, rfl⟩
abbrev main_v46 : Ref sig .tc := ⟨.hbm, 85, rfl⟩
abbrev main_cst_5 : Ref sig .tc := ⟨.hbm, 86, rfl⟩
abbrev main_v47 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x2048x32000_S4096x32000 : S2x2048x32000.ShapeCasts S4096x32000
  inb_S64x32000_S64x32000_0_0 : ∀ a, (![0, 0] : Fin 2 → Nat) a + S64x32000.size a ≤ S64x32000.size a
  h_S64x32000 : 0 < S64x32000.numel
  shapeCasts_S64x32000_S64x32000 : S64x32000.ShapeCasts S64x32000
  reduces_S64x32000_S64 : S64x32000.Reduces [1] S64
  shapeCasts_S64_S64x1 : S64.ShapeCasts S64x1
  broadcasts_S64x1_S64x32000 : S64x1.Broadcasts S64x32000
  inb_S64x1_S64x1_0_0 : ∀ a, (![0, 0] : Fin 2 → Nat) a + S64x1.size a ≤ S64x1.size a
  h_S64x1 : 0 < S64x1.numel
  shapeCasts_S4096x1_S2x2048 : S4096x1.ShapeCasts S2x2048
  slices_S2x2048_S2x2038_0_10 : S2x2048.Slices ![0, 10] S2x2038
  bcast_S2038_S2038x1_0 : S2038.BroadcastsInDim S2038x1 (![0] : Fin 1 → Fin S2038x1.rank)
  bcast_S10_S1x10_1 : S10.BroadcastsInDim S1x10 (![1] : Fin 1 → Fin S1x10.rank)
  bcast_S2038x1_S2038x10_0_1 : S2038x1.BroadcastsInDim S2038x10 (![0, 1] : Fin 2 → Fin S2038x10.rank)
  bcast_S1x10_S2038x10_0_1 : S1x10.BroadcastsInDim S2038x10 (![0, 1] : Fin 2 → Fin S2038x10.rank)
  bcast_S_S2038x10 : S_.BroadcastsInDim S2038x10 (![] : Fin 0 → Fin S2038x10.rank)
  bcast_S2038x10_S2038x10x1_0_1 : S2038x10.BroadcastsInDim S2038x10x1 (![0, 1] : Fin 2 → Fin S2038x10x1.rank)
  slices_S2x2048x32000_S2x2038x32000_0_10_0 : S2x2048x32000.Slices ![0, 10, 0] S2x2038x32000
  bcast_S_S2x2038x10 : S_.BroadcastsInDim S2x2038x10 (![] : Fin 0 → Fin S2x2038x10.rank)
  shapeCasts_S2x2038x10_S2x2038x10x1 : S2x2038x10.ShapeCasts S2x2038x10x1
  bcast_S_S2x2038x10x1 : S_.BroadcastsInDim S2x2038x10x1 (![] : Fin 0 → Fin S2x2038x10x1.rank)
  bcast_S1_S1x1x1x1_3 : S1.BroadcastsInDim S1x1x1x1 (![3] : Fin 1 → Fin S1x1x1x1.rank)
  bcast_S1x1x1x1_S2x2038x10x1_0_1_2_3 : S1x1x1x1.BroadcastsInDim S2x2038x10x1 (![0, 1, 2, 3] : Fin 4 → Fin S2x2038x10x1.rank)
  reducesTo_S2x2038x10x1_S2x2038x10_d3 : S2x2038x10x1.ReducesTo [3] S2x2038x10
  h_S_ : 0 < S_.numel
  bcast_S_S2x2038 : S_.BroadcastsInDim S2x2038 (![] : Fin 0 → Fin S2x2038.rank)
  bcast_S2x2038_S2x2038x1_0_1 : S2x2038.BroadcastsInDim S2x2038x1 (![0, 1] : Fin 2 → Fin S2x2038x1.rank)
  bcast_S2x2038x1_S2x2038x10_0_1_2 : S2x2038x1.BroadcastsInDim S2x2038x10 (![0, 1, 2] : Fin 3 → Fin S2x2038x10.rank)
  bcast_S2x2038x10_S2x2038x10x1_0_1_2 : S2x2038x10.BroadcastsInDim S2x2038x10x1 (![0, 1, 2] : Fin 3 → Fin S2x2038x10x1.rank)
  bcast_S2x2038x10_S2x2038x1x10_0_1_3 : S2x2038x10.BroadcastsInDim S2x2038x1x10 (![0, 1, 3] : Fin 3 → Fin S2x2038x1x10.rank)
  bcast_S2x2038x10x1_S2x2038x10x10_0_1_2_3 : S2x2038x10x1.BroadcastsInDim S2x2038x10x10 (![0, 1, 2, 3] : Fin 4 → Fin S2x2038x10x10.rank)
  bcast_S2x2038x1x10_S2x2038x10x10_0_1_2_3 : S2x2038x1x10.BroadcastsInDim S2x2038x10x10 (![0, 1, 2, 3] : Fin 4 → Fin S2x2038x10x10.rank)
  bcast_S_S10x10 : S_.BroadcastsInDim S10x10 (![] : Fin 0 → Fin S10x10.rank)
  bcast_S10x10_S1x1x10x10_2_3 : S10x10.BroadcastsInDim S1x1x10x10 (![2, 3] : Fin 2 → Fin S1x1x10x10.rank)
  bcast_S1x1x10x10_S2x2038x10x10_0_1_2_3 : S1x1x10x10.BroadcastsInDim S2x2038x10x10 (![0, 1, 2, 3] : Fin 4 → Fin S2x2038x10x10.rank)
  reducesTo_S2x2038x10x10_S2x2038x10_d3 : S2x2038x10x10.ReducesTo [3] S2x2038x10
  reducesTo_S2x2038x10_S_d0_1_2 : S2x2038x10.ReducesTo [0, 1, 2] S_
  gather_S2x2048_S2038x10x1_S2x2038x10_0_1_n_n_1_2_21_wf : GatherDims.WF S2x2048 S2038x10x1 S2x2038x10 [0] [1] [] [1] [] 2 ![2, 1]
  gather_S2x2038x32000_S2x2038x10x1_S2x2038x10_n_2_01_01_2_3_111_wf : GatherDims.WF S2x2038x32000 S2x2038x10x1 S2x2038x10 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x32000.size a ≤ S4096x32000.size a
  hwx0_0 : ∀ i : grid0.Coords, EltTy.bits .f32 = 32 ∨ (Rect.block (s := S4096x32000) S64x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .f32 = 32 ∨ (Rect.block (s := S4096x1) S64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)

variable [Facts₀]

def gather_S2x2048_S2038x10x1_S2x2038x10_0_1_n_n_1_2_21 : GatherDims S2x2048 S2038x10x1 S2x2038x10 where
  offsetDims := [0]
  collapsedSliceDims := [1]
  operandBatchingDims := []
  startIndicesBatchingDims := []
  startIndexMap := [1]
  indexVectorDim := 2
  sliceSizes := ![2, 1]
  wf := gather_S2x2048_S2038x10x1_S2x2038x10_0_1_n_n_1_2_21_wf
def gather_S2x2038x32000_S2x2038x10x1_S2x2038x10_n_2_01_01_2_3_111 : GatherDims S2x2038x32000 S2x2038x10x1 S2x2038x10 where
  offsetDims := []
  collapsedSliceDims := [2]
  operandBatchingDims := [0, 1]
  startIndicesBatchingDims := [0, 1]
  startIndexMap := [2]
  indexVectorDim := 3
  sliceSizes := ![1, 1, 1]
  wf := gather_S2x2038x32000_S2x2038x10x1_S2x2038x10_n_2_01_01_2_3_111_wf

abbrev win0_0 : Pipeline.Window sig grid0 :=
  Pipeline.Window.ofSpec (Memref.whole main_v0) S64x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S64x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S64x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x2048x32000 : Shape := ⟨3, ![2, 2048, 32000]⟩
abbrev S2x2048 : Shape := ⟨2, ![2, 2048]⟩
abbrev S2x2038x32000 : Shape := ⟨3, ![2, 2038, 32000]⟩
abbrev S_ : Shape := ⟨0, ![]⟩
abbrev S2x2038 : Shape := ⟨2, ![2, 2038]⟩
abbrev S2x2038x1 : Shape := ⟨3, ![2, 2038, 1]⟩
abbrev S2038 : Shape := ⟨1, ![2038]⟩
abbrev S2038x1 : Shape := ⟨2, ![2038, 1]⟩
abbrev S10 : Shape := ⟨1, ![10]⟩
abbrev S1x10 : Shape := ⟨2, ![1, 10]⟩
abbrev S2038x10 : Shape := ⟨2, ![2038, 10]⟩
abbrev S2038x10x1 : Shape := ⟨3, ![2038, 10, 1]⟩
abbrev S2x2038x10 : Shape := ⟨3, ![2, 2038, 10]⟩
abbrev S2x2038x10x1 : Shape := ⟨4, ![2, 2038, 10, 1]⟩
abbrev S1 : Shape := ⟨1, ![1]⟩
abbrev S1x1x1x1 : Shape := ⟨4, ![1, 1, 1, 1]⟩
abbrev S2x2038x1x10 : Shape := ⟨4, ![2, 2038, 1, 10]⟩
abbrev S2x2038x10x10 : Shape := ⟨4, ![2, 2038, 10, 10]⟩
abbrev S10x10 : Shape := ⟨2, ![10, 10]⟩
abbrev S1x1x10x10 : Shape := ⟨4, ![1, 1, 10, 10]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x32000, .f32⟩
  | .hbm, ⟨1, _⟩ => ⟨S2x2048, .i32⟩
  | .hbm, ⟨2, _⟩ => ⟨S2x2038x32000, .f32⟩
  | .hbm, ⟨3, _⟩ => ⟨S_, .f32⟩
  | .hbm, ⟨4, _⟩ => ⟨S2x2038, .f32⟩
  | .hbm, ⟨5, _⟩ => ⟨S_, .f32⟩
  | .hbm, ⟨6, _⟩ => ⟨S2x2038, .f32⟩
  | .hbm, ⟨7, _⟩ => ⟨S2x2038, .f32⟩
  | .hbm, ⟨8, _⟩ => ⟨S2x2038x1, .f32⟩
  | .hbm, ⟨9, _⟩ => ⟨S2x2038x32000, .f32⟩
  | .hbm, ⟨10, _⟩ => ⟨S2x2038x32000, .f32⟩
  | .hbm, ⟨11, _⟩ => ⟨S2x2038x32000, .f32⟩
  | .hbm, ⟨12, _⟩ => ⟨S_, .f32⟩
  | .hbm, ⟨13, _⟩ => ⟨S2x2038, .f32⟩
  | .hbm, ⟨14, _⟩ => ⟨S2x2038x1, .f32⟩
  | .hbm, ⟨15, _⟩ => ⟨S2x2038x32000, .f32⟩
  | .hbm, ⟨16, _⟩ => ⟨S2x2038x32000, .f32⟩
  | .hbm, ⟨17, _⟩ => ⟨S2038, .i32⟩
  | .hbm, ⟨18, _⟩ => ⟨S2038x1, .i32⟩
  | .hbm, ⟨19, _⟩ => ⟨S10, .i32⟩
  | .hbm, ⟨20, _⟩ => ⟨S1x10, .i32⟩
  | .hbm, ⟨21, _⟩ => ⟨S2038x10, .i32⟩
  | .hbm, ⟨22, _⟩ => ⟨S2038x10, .i32⟩
  | .hbm, ⟨23, _⟩ => ⟨S2038x10, .i32⟩
  | .hbm, ⟨24, _⟩ => ⟨S_, .i32⟩
  | .hbm, ⟨25, _⟩ => ⟨S2038x10, .i32⟩
  | .hbm, ⟨26, _⟩ => ⟨S2038x10, .i1⟩
  | .hbm, ⟨27, _⟩ => ⟨S_, .i32⟩
  | .hbm, ⟨28, _⟩ => ⟨S2038x10, .i32⟩
  | .hbm, ⟨29, _⟩ => ⟨S2038x10, .i32⟩
  | .hbm, ⟨30, _⟩ => ⟨S2038x10, .i32⟩
  | .hbm, ⟨31, _⟩ => ⟨S2038x10x1, .i32⟩
  | .hbm, ⟨32, _⟩ => ⟨S2x2038x10, .i32⟩
  | .hbm, ⟨33, _⟩ => ⟨S_, .i32⟩
  | .hbm, ⟨34, _⟩ => ⟨S2x2038x10, .i32⟩
  | .hbm, ⟨35, _⟩ => ⟨S2x2038x10, .i1⟩
  | .hbm, ⟨36, _⟩ => ⟨S_, .i32⟩
  | .hbm, ⟨37, _⟩ => ⟨S2x2038x10, .i32⟩
  | .hbm, ⟨38, _⟩ => ⟨S2x2038x10, .i32⟩
  | .hbm, ⟨39, _⟩ => ⟨S2x2038x10, .i32⟩
  | .hbm, ⟨40, _⟩ => ⟨S2x2038x10x1, .i32⟩
  | .hbm, ⟨41, _⟩ => ⟨S1, .i32⟩
  | .hbm, ⟨42, _⟩ => ⟨S_, .i32⟩
  | .hbm, ⟨43, _⟩ => ⟨S2x2038x10x1, .i32⟩
  | .hbm, ⟨44, _⟩ => ⟨S2x2038x10x1, .i1⟩
  | .hbm, ⟨45, _⟩ => ⟨S1x1x1x1, .i32⟩
  | .hbm, ⟨46, _⟩ => ⟨S2x2038x10x1, .i32⟩
  | .hbm, ⟨47, _⟩ => ⟨S2x2038x10x1, .i1⟩
  | .hbm, ⟨48, _⟩ => ⟨S2x2038x10x1, .i1⟩
  | .hbm, ⟨49, _⟩ => ⟨S_, .i1⟩
  | .hbm, ⟨50, _⟩ => ⟨S2x2038x10, .i1⟩
  | .hbm, ⟨51, _⟩ => ⟨S2x2038x10, .f32⟩
  | .hbm, ⟨52, _⟩ => ⟨S_, .f32⟩
  | .hbm, ⟨53, _⟩ => ⟨S2x2038x10, .f32⟩
  | .hbm, ⟨54, _⟩ => ⟨S2x2038x10, .f32⟩
  | .hbm, ⟨55, _⟩ => ⟨S2x2038x10x1, .i32⟩
  | .hbm, ⟨56, _⟩ => ⟨S2x2038x1x10, .i32⟩
  | .hbm, ⟨57, _⟩ => ⟨S2x2038x10x10, .i32⟩
  | .hbm, ⟨58, _⟩ => ⟨S2x2038x10x10, .i32⟩
  | .hbm, ⟨59, _⟩ => ⟨S2x2038x10x10, .i1⟩
  | .hbm, ⟨60, _⟩ => ⟨S_, .i1⟩
  | .hbm, ⟨61, _⟩ => ⟨S10x10, .i1⟩
  | .hbm, ⟨62, _⟩ => ⟨S10x10, .i32⟩
  | .hbm, ⟨63, _⟩ => ⟨S_, .i32⟩
  | .hbm, ⟨64, _⟩ => ⟨S10x10, .i32⟩
  | .hbm, ⟨65, _⟩ => ⟨S10x10, .i32⟩
  | .hbm, ⟨66, _⟩ => ⟨S10x10, .i32⟩
  | .hbm, ⟨67, _⟩ => ⟨S10x10, .i1⟩
  | .hbm, ⟨68, _⟩ => ⟨S_, .i1⟩
  | .hbm, ⟨69, _⟩ => ⟨S10x10, .i1⟩
  | .hbm, ⟨70, _⟩ => ⟨S10x10, .i1⟩
  | .hbm, ⟨71, _⟩ => ⟨S1x1x10x10, .i1⟩
  | .hbm, ⟨72, _⟩ => ⟨S2x2038x10x10, .i1⟩
  | .hbm, ⟨73, _⟩ => ⟨S2x2038x10x10, .i1⟩
  | .hbm, ⟨74, _⟩ => ⟨S_, .i1⟩
  | .hbm, ⟨75, _⟩ => ⟨S2x2038x10, .i1⟩
  | .hbm, ⟨76, _⟩ => ⟨S2x2038x10, .i1⟩
  | .hbm, ⟨77, _⟩ => ⟨S2x2038x10, .f32⟩
  | .hbm, ⟨78, _⟩ => ⟨S2x2038x10, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S2x2048x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_c_3 : Ref sig .tc := ⟨.hbm, 60, rfl⟩
abbrev main_v32 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_0 : Ref sig .tc := ⟨.hbm, 68, rfl⟩
abbrev main_call1_v5 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_c_4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_5 : Ref sig .tc := ⟨.hbm, 79, rfl⟩
abbrev main_v41 : Ref sig .tc := ⟨.hbm, 80, rfl⟩
abbrev main_cst_6 : Ref sig .tc := ⟨.hbm, 81, rfl⟩
abbrev main_v42 : Ref sig .tc := ⟨.hbm, 82, rfl⟩
abbrev main_cst_7 : Ref sig .tc := ⟨.hbm, 83, rfl⟩
abbrev main_v43 : Ref sig .tc := ⟨.hbm, 84, rfl⟩

abbrev nD : Nat := 1
abbrev τ : Topo := Topo.v7x

variable {F : FTy → Type} [FloatOps F]

class Facts₀ : Prop where
  slices_S2x2048x32000_S2x2038x32000_0_10_0 : S2x2048x32000.Slices ![0, 10, 0] S2x2038x32000
  reducesTo_S2x2038x32000_S2x2038_d2 : S2x2038x32000.ReducesTo [2] S2x2038
  h_S_ : 0 < S_.numel
  bcast_S_S2x2038 : S_.BroadcastsInDim S2x2038 (![] : Fin 0 → Fin S2x2038.rank)
  bcast_S2x2038_S2x2038x1_0_1 : S2x2038.BroadcastsInDim S2x2038x1 (![0, 1] : Fin 2 → Fin S2x2038x1.rank)
  bcast_S2x2038x1_S2x2038x32000_0_1_2 : S2x2038x1.BroadcastsInDim S2x2038x32000 (![0, 1, 2] : Fin 3 → Fin S2x2038x32000.rank)
  bcast_S2038_S2038x1_0 : S2038.BroadcastsInDim S2038x1 (![0] : Fin 1 → Fin S2038x1.rank)
  bcast_S10_S1x10_1 : S10.BroadcastsInDim S1x10 (![1] : Fin 1 → Fin S1x10.rank)
  bcast_S2038x1_S2038x10_0_1 : S2038x1.BroadcastsInDim S2038x10 (![0, 1] : Fin 2 → Fin S2038x10.rank)
  bcast_S1x10_S2038x10_0_1 : S1x10.BroadcastsInDim S2038x10 (![0, 1] : Fin 2 → Fin S2038x10.rank)
  bcast_S_S2038x10 : S_.BroadcastsInDim S2038x10 (![] : Fin 0 → Fin S2038x10.rank)
  bcast_S2038x10_S2038x10x1_0_1 : S2038x10.BroadcastsInDim S2038x10x1 (![0, 1] : Fin 2 → Fin S2038x10x1.rank)
  bcast_S_S2x2038x10 : S_.BroadcastsInDim S2x2038x10 (![] : Fin 0 → Fin S2x2038x10.rank)
  shapeCasts_S2x2038x10_S2x2038x10x1 : S2x2038x10.ShapeCasts S2x2038x10x1
  bcast_S_S2x2038x10x1 : S_.BroadcastsInDim S2x2038x10x1 (![] : Fin 0 → Fin S2x2038x10x1.rank)
  bcast_S1_S1x1x1x1_3 : S1.BroadcastsInDim S1x1x1x1 (![3] : Fin 1 → Fin S1x1x1x1.rank)
  bcast_S1x1x1x1_S2x2038x10x1_0_1_2_3 : S1x1x1x1.BroadcastsInDim S2x2038x10x1 (![0, 1, 2, 3] : Fin 4 → Fin S2x2038x10x1.rank)
  reducesTo_S2x2038x10x1_S2x2038x10_d3 : S2x2038x10x1.ReducesTo [3] S2x2038x10
  bcast_S2x2038x10_S2x2038x10x1_0_1_2 : S2x2038x10.BroadcastsInDim S2x2038x10x1 (![0, 1, 2] : Fin 3 → Fin S2x2038x10x1.rank)
  bcast_S2x2038x10_S2x2038x1x10_0_1_3 : S2x2038x10.BroadcastsInDim S2x2038x1x10 (![0, 1, 3] : Fin 3 → Fin S2x2038x1x10.rank)
  bcast_S2x2038x10x1_S2x2038x10x10_0_1_2_3 : S2x2038x10x1.BroadcastsInDim S2x2038x10x10 (![0, 1, 2, 3] : Fin 4 → Fin S2x2038x10x10.rank)
  bcast_S2x2038x1x10_S2x2038x10x10_0_1_2_3 : S2x2038x1x10.BroadcastsInDim S2x2038x10x10 (![0, 1, 2, 3] : Fin 4 → Fin S2x2038x10x10.rank)
  bcast_S_S10x10 : S_.BroadcastsInDim S10x10 (![] : Fin 0 → Fin S10x10.rank)
  bcast_S10x10_S1x1x10x10_2_3 : S10x10.BroadcastsInDim S1x1x10x10 (![2, 3] : Fin 2 → Fin S1x1x10x10.rank)
  bcast_S1x1x10x10_S2x2038x10x10_0_1_2_3 : S1x1x10x10.BroadcastsInDim S2x2038x10x10 (![0, 1, 2, 3] : Fin 4 → Fin S2x2038x10x10.rank)
  reducesTo_S2x2038x10x10_S2x2038x10_d3 : S2x2038x10x10.ReducesTo [3] S2x2038x10
  reducesTo_S2x2038x10_S_d0_1_2 : S2x2038x10.ReducesTo [0, 1, 2] S_
  gather_S2x2048_S2038x10x1_S2x2038x10_0_1_n_n_1_2_21_wf : GatherDims.WF S2x2048 S2038x10x1 S2x2038x10 [0] [1] [] [1] [] 2 ![2, 1]
  gather_S2x2038x32000_S2x2038x10x1_S2x2038x10_n_2_01_01_2_3_111_wf : GatherDims.WF S2x2038x32000 S2x2038x10x1 S2x2038x10 [] [2] [0, 1] [2] [0, 1] 3 ![1, 1, 1]

variable [Facts₀]

def gather_S2x2048_S2038x10x1_S2x2038x10_0_1_n_n_1_2_21 : GatherDims S2x2048 S2038x10x1 S2x2038x10 where
  offsetDims := [0]
  collapsedSliceDims := [1]
  operandBatchingDims := []
  startIndicesBatchingDims := []
  startIndexMap := [1]
  indexVectorDim := 2
  sliceSizes := ![2, 1]
  wf := gather_S2x2048_S2038x10x1_S2x2038x10_0_1_n_n_1_2_21_wf
def gather_S2x2038x32000_S2x2038x10x1_S2x2038x10_n_2_01_01_2_3_111 : GatherDims S2x2038x32000 S2x2038x10x1 S2x2038x10 where
  offsetDims := []
  collapsedSliceDims := [2]
  operandBatchingDims := [0, 1]
  startIndicesBatchingDims := [0, 1]
  startIndexMap := [2]
  indexVectorDim := 3
  sliceSizes := ![1, 1, 1]
  wf := gather_S2x2038x32000_S2x2038x10x1_S2x2038x10_n_2_01_01_2_3_111_wf

class Facts : Prop extends Facts₀ where

variable [Facts]
-- ==== Proof.FrameK.lean ====
/- The frame certificate of the program, generic in the float family.

   @main is one reshape, one pipelined region over a grid of 64 points, and then 83 host operations in five
   stretches.  This module shows that every weakly fair run of @main terminates and that the two argument arrays
   end as they were launched.  The plan:

   * the region is entered with every buffer at its launch contents except the reshape's result (V0, V);
   * the 83 later operations allocate nothing, stay inside the unscoped buffers, and write none of five buffers:
     the three arrays the region's windows stage and the two argument arrays (one pass over the operations,
     tail_spares);
   * the kernel body reads its input block whole and overwrites each of its two output blocks whole, so what it
     leaves in each output buffer is a function of the input block alone (out0_1, out0_2, sound_kernel);
   * with proof data saying exactly that (dats), the library's frame run around a region gives the final
     contents of every unscoped buffer (run_main), and read at the two argument arrays this is the frame claim
     (frame). -/
import proofs.«419532_j28759101014353_3_alg».proof.Proof.Gen.Kernel.Launch
import proofs.«419532_j28759101014353_3_alg».proof.Proof.Gen.Kernel.Skeleton
import proofs.«419532_j28759101014353_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- deciding that a whole-block rectangle of 64 x 32000 tiles its shape recurses along the long axis
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host operations that follow the region, stretch by stretch, in program order. -/
local notation "tailOps" =>
  ([hostOps1, hostOps1_1, hostOps1_2, hostOps1_3, hostOps1_4] : List (List (HloOp τ sig (Elt F))))

variable (m : (ℓ : Loc nD τ sig) → Buf (Elt F) ℓ) (ρ : Dev nD → PrngReg)

/-! ## Contents at the region's entry -/

/-- What core c's unscoped buffers hold when the region is entered: the launch contents run through the single
    host operation that precedes it. -/
abbrev V0 (c : Dev nD) : Valuation τ sig (Elt F) := StableHlo.after (List.flatten [hostOps0]) (fun b => m (c, b))
/-- V0 at a TensorCore reference. -/
abbrev V (c : Dev nD) (b : Ref sig .tc) : Buf (Elt F) ((c : Thread nD τ).loc b) := V0 m c (Proc.devRef .tc b)

/-! ## What the host operations write, and what they leave alone -/

/-- An operation whose only written buffer is y does not write a reference different from y. -/
theorem not_written {op : HloOp τ sig (Elt F)} {y r : Ref sig .tc} (hw : op.writes = {Proc.devRef .tc y}) (h : r ≠ y) :
    Proc.devRef (τ := τ) .tc r ∉ op.writes := by
  rw [hw, Finset.mem_singleton]; exact StableHlo.devRef_ne_of_ne h

/-- The five buffers the later operations must leave alone: the three arrays staged by the region's windows, whose
    final contents the region fixes, and the two argument arrays of the frame claim. -/
abbrev kept : List (Ref sig .tc) := [main_v0, main_v1_0, main_v1_1, main_arg0, main_arg1]

/-- An operation whose only written buffer is y, with y outside kept, writes no buffer of kept. -/
theorem spares_of_writes {op : HloOp τ sig (Elt F)} {y : Ref sig .tc} (hw : op.writes = {Proc.devRef .tc y}) (hy : y ∉ kept) :
    ∀ r ∈ kept, Proc.devRef (τ := τ) .tc r ∉ op.writes :=
  fun r hr => not_written hw fun e => hy (e ▸ hr)

/-- No host operation allocates: each builder's set of fresh buffers is empty by definition. -/
theorem hostOps0_fresh : (hostOps0 : List (HloOp τ sig (Elt F))).Forall fun op => op.fresh = ∅ := by
  simp only [List.Forall]; and_intros <;> rfl
theorem hostOps1_fresh : (hostOps1 : List (HloOp τ sig (Elt F))).Forall fun op => op.fresh = ∅ := by
  simp only [List.Forall]; and_intros <;> rfl
theorem hostOps1_1_fresh : (hostOps1_1 : List (HloOp τ sig (Elt F))).Forall fun op => op.fresh = ∅ := by
  simp only [List.Forall]; and_intros <;> rfl
theorem hostOps1_2_fresh : (hostOps1_2 : List (HloOp τ sig (Elt F))).Forall fun op => op.fresh = ∅ := by
  simp only [List.Forall]; and_intros <;> rfl
theorem hostOps1_3_fresh : (hostOps1_3 : List (HloOp τ sig (Elt F))).Forall fun op => op.fresh = ∅ := by
  simp only [List.Forall]; and_intros <;> rfl
theorem hostOps1_4_fresh : (hostOps1_4 : List (HloOp τ sig (Elt F))).Forall fun op => op.fresh = ∅ := by
  simp only [List.Forall]; and_intros <;> rfl

/-- Each later operation writes exactly its own result buffer, and no result buffer is among kept: the 21, 22, 17,
    9 and 14 operations one by one, the result read off the builder and compared with the five references. -/
theorem hostOps1_spares : (hostOps1 : List (HloOp τ sig (Elt F))).Forall fun op => ∀ r ∈ kept, Proc.devRef (τ := τ) .tc r ∉ op.writes := by
  simp only [List.Forall]; and_intros <;> exact spares_of_writes rfl (by decide)
theorem hostOps1_1_spares : (hostOps1_1 : List (HloOp τ sig (Elt F))).Forall fun op => ∀ r ∈ kept, Proc.devRef (τ := τ) .tc r ∉ op.writes := by
  simp only [List.Forall]; and_intros <;> exact spares_of_writes rfl (by decide)
theorem hostOps1_2_spares : (hostOps1_2 : List (HloOp τ sig (Elt F))).Forall fun op => ∀ r ∈ kept, Proc.devRef (τ := τ) .tc r ∉ op.writes := by
  simp only [List.Forall]; and_intros <;> exact spares_of_writes rfl (by decide)
theorem hostOps1_3_spares : (hostOps1_3 : List (HloOp τ sig (Elt F))).Forall fun op => ∀ r ∈ kept, Proc.devRef (τ := τ) .tc r ∉ op.writes := by
  simp only [List.Forall]; and_intros <;> exact spares_of_writes rfl (by decide)
theorem hostOps1_4_spares : (hostOps1_4 : List (HloOp τ sig (Elt F))).Forall fun op => ∀ r ∈ kept, Proc.devRef (τ := τ) .tc r ∉ op.writes := by
  simp only [List.Forall]; and_intros <;> exact spares_of_writes rfl (by decide)

/-- A property of every operation of each of the five stretches is a property of every operation after the region. -/
theorem tail_forall {p : HloOp τ sig (Elt F) → Prop} (h1 : hostOps1.Forall p) (h2 : hostOps1_1.Forall p) (h3 : hostOps1_2.Forall p)
    (h4 : hostOps1_3.Forall p) (h5 : hostOps1_4.Forall p) : ∀ ops ∈ tailOps, ∀ op ∈ ops, p op := by
  intro ops hops op hop
  simp only [List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- No operation after the region writes a buffer of kept. -/
theorem tail_spares : ∀ ops ∈ tailOps, ∀ op ∈ ops, ∀ r ∈ kept, Proc.devRef (τ := τ) .tc r ∉ op.writes :=
  tail_forall hostOps1_spares hostOps1_1_spares hostOps1_2_spares hostOps1_3_spares hostOps1_4_spares

/-- The operations after the region touch unscoped TensorCore buffers only; as the pipeline prefetches no table,
    these are exactly the buffers a line after the region may touch. -/
theorem sfx_sub : ∀ ops ∈ tailOps, ∀ op ∈ ops, op.bufs ⊆ Pipeline.tailRefs sig Pipeline.Prefetch.none spec0 := by
  rw [Pipeline.tailRefs_none spec0 launch0.win.arr_unscoped]
  exact fun ops hops op hop => Pipeline.sub_ucRefs op
    (tail_forall (p := fun op => op.bufs ⊆ StableHlo.tcRefs τ sig) hostOps1_sub hostOps1_1_sub hostOps1_2_sub hostOps1_3_sub hostOps1_4_sub ops hops op hop)
/-- They allocate nothing. -/
theorem sfx_fresh : ∀ ops ∈ tailOps, ∀ op ∈ ops, op.fresh = ∅ :=
  tail_forall hostOps1_fresh hostOps1_1_fresh hostOps1_2_fresh hostOps1_3_fresh hostOps1_4_fresh
/-- They write no array of the pipeline: each window's array is one of kept. -/
theorem sfx_keeps : ∀ ops ∈ tailOps, ∀ op ∈ ops, ∀ w, Proc.devRef .tc (Pipeline.arrRef spec0 w) ∉ op.writes :=
  fun ops hops op hop w => tail_spares ops hops op hop _ ((by decide : ∀ w, Pipeline.arrRef spec0 w ∈ kept) w)

/-! ## @main around its region -/

set_option maxHeartbeats 2000000 in
/-- @main is the reshape, the region, and then the five stretches: holding the region boundary and the unscoped
    buffers at the launch contents, it reduces to the region continued by the five stretches, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tailOps (by simp only [List.Forall]; exact hostOps0_sub)
    (by simp only [List.Forall]; exact hostOps0_fresh) main_chain

/-! ## The argument arrays, before and after the region -/

/-- The reshape before the region writes its own result only, so both argument arrays enter the region as launched. -/
theorem V_of_ne (c : Dev nD) (r : Ref sig .tc) (h : r ≠ main_v0) : V m c r = m ((c : Thread nD τ).loc r) :=
  StableHlo.after_of_forall_not_mem (b := Proc.devRef .tc r) _ _ fun op hop => by
    obtain rfl := List.mem_singleton.mp hop
    exact not_written rfl h
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)

/-- After the five stretches, a buffer of kept that is no window's array still holds its launch contents, whatever
    the proof data: no later operation writes it (tail_spares), the region's exit contents differ from the entry
    contents at the windows' arrays only, and the reshape did not write it. -/
theorem W_of_kept (dats : (p : Fin 1) → (c : Dev nD) → Dat τ (Elt F) Unit ℕ (UR sig nD τ) ℕ (cfgs p) c) (c : Dev nD)
    (r : Ref sig .tc) (hk : r ∈ kept) (ha : ∀ w, Pipeline.arrRef spec0 w ≠ r) (h0 : r ≠ main_v0) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_spares ops hops op hop' r hk),
    Pipeline.withArrays_of_ne _ c (V0 m c) _ r (by exact ha)]
  exact V_of_ne m c r h0
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_kept m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_kept m dats c main_arg1 (by decide) (by decide) (by decide)

/-! ## The windows' blocks and the body's stores -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole input block [64, 32000] and the whole output block [64, 1] as rectangles: every access of the body is
    through one of the two. -/
abbrev r0 : Rect S64x32000 := Rect.unit (s := S64x32000) ![0, 0] S64x32000.size inb_S64x32000_S64x32000_0_0
abbrev r1 : Rect S64x1 := Rect.unit (s := S64x1) ![0, 0] S64x1.size inb_S64x1_S64x1_0_0

/-- What the body leaves in the first output's buffer, given the input block x0: its one store there, of the row
    maxima of x0, over the whole block. -/
def out0_1 (x0 : Vec F S64x32000 .f32) : Vec F S64x1 .f32 :=
  View.canon [⟨r1, k0_pay2 (View.ld x0 r0)⟩]
/-- What it leaves in the second output's buffer: its one store there, of the row sums of exp (x0 - row maximum),
    over the whole block. -/
def out0_2 (x0 : Vec F S64x32000 .f32) : Vec F S64x1 .f32 :=
  View.canon [⟨r1, k0_pay3 (View.ld x0 r0)⟩]

/-- A single store through r1 reaches every index of the [64, 1] block. -/
theorem cover_r1 (p : Vec F S64x1 .f32) (y : S64x1.Idx) :
    ∃ pc ∈ ([⟨r1, p⟩] : List (View.Piece (Elt F) S64x1 .f32)), y ∈ pc.1.set :=
  View.cover_of_tiled [⟨r1, p⟩] S64x1.size (by rfl) y

/-! ## The body's triple -/

set_option maxHeartbeats 1000000 in
/-- The kernel body on three whole staging memrefs — the input's holding x0, each output's holding anything — runs
    to a state where the input's still holds x0 and the outputs' hold out0_1 x0 and out0_2 x0.  It loads the input
    block, then for each output loads the buffer (the value is dropped) and stores the payload over all of it; a
    buffer overwritten everywhere reads back as the canon of that one store. -/
theorem sound_kernel (c : Dev nD) (E : Set ℕ) (i : grid0.Coords) (arg1 : Memref sig .tc .vmem S64x32000 .f32) (harg1 : arg1.IsWhole)
    (arg2 : Memref sig .tc .vmem S64x1 .f32) (harg2 : arg2.IsWhole) (arg3 : Memref sig .tc .vmem S64x1 .f32) (harg3 : arg3.IsWhole)
    (x0 : Vec F S64x32000 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__rownorm_kernel i arg1 harg1 arg2 harg2 arg3 harg3) K := by
  simp only [cc0__rownorm_kernel_eq_skeleton]; unfold cc0__rownorm_kernel_skel
  unfold owns
  iintro ⟨⟨%f0, %hf0, H0⟩, ⟨%d1, %f1, -, H1⟩, ⟨%d2, %f2, -, H2⟩, Hk⟩
  subst hf0
  -- run the three loads and two stores; what remains is the return
  sl_exec
  sl_step
  -- each output buffer, overwritten everywhere by its one store, reads back as the canon of that store
  have h1 : arg2.view.read (Elt F) (arg2.view.writes (Elt F) f1 [⟨r1, k0_pay2 (View.ld (arg1.view.read (Elt F) f0) r0)⟩])
      = out0_1 (arg1.view.read (Elt F) f0) := View.read_writes_eq_canon _ _ _ (cover_r1 _)
  have h2 : arg3.view.read (Elt F) (arg3.view.writes (Elt F) f2 [⟨r1, k0_pay3 (View.ld (arg1.view.read (Elt F) f0) r0)⟩])
      = out0_2 (arg1.view.read (Elt F) f0) := View.read_writes_eq_canon _ _ _ (cover_r1 _)
  iapply Hk
  isplitl [H0]
  · iexists f0; isplitr
    · ipureintro; rfl
    · iexact H0
  isplitl [H1]
  · iexists _; isplitr
    · ipureintro; exact h1
    · iexact H1
  · iexists _; isplitr
    · ipureintro; exact h2
    · iexact H2

/-! ## The pipeline's proof data -/

/-- The proof data of the pipeline on core c: the arrays as the region finds them; after the body at point t the
    input's buffer still at its block and the outputs' at out0_1 and out0_2 of that block; the invariant the
    library's for a body with no state of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

/-- The proof data's arrays are the region-entry contents (a projection of the definition; V is not unfolded). -/
theorem A_eq (c : Dev nD) (w : Fin cfg0.W) : (dats m 0 c).A w = V m c (Pipeline.arrRef spec0 w) := by
  dsimp only [dats]

/-- What the body leaves, window by window (the definition's match reduced at each literal index). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-- The input window is fetched at every one of the 64 points, and its block is never cut, so at each point its
    current staging buffer holds exactly the block there. -/
theorem before0_0 (c : Dev nD) (t : Fin cfg0.N) (d) : (dats m 0 c).before 0 t d = iblk m c 0 t :=
  ((dats m 0 c).before_fetched 0 t (fetch0_0 t) d).trans (by
    unfold Dat.fetched Dat.blockOf iblk; rw [A_eq]; try rfl)

/-! ## The body obligation -/

/-- What the pipeline calls the body with at point t: the invariant, the core's debt, and the three current staging
    buffers, each at what the proof data says it finds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body must return: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point meets it: the input's buffer holds the block (before0_0), the outputs' hold something, so
    sound_kernel applies at x0 the block; the invariant and the debt are constant in the point and are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point: its conjunction over the windows is the three-fold one above. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's frame run are found by unifying its conclusion with the statement, which
-- needs plain definitions unfolded inside a metavariable's type
set_option backward.isDefEq.respectTransparency.types false in
set_option maxHeartbeats 2000000 in
/-- At the compiled mesh, for any values, from any memory with zero counters: every weakly fair execution of @main on
    the TensorCores terminates, and in every final state each array of the pipeline holds what the library computes
    from the proof data, and every other unscoped buffer holds what the five stretches leave there. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float family: @main terminates and both argument arrays end as launched.  Neither is a
    window's array, so the run's post gives each at what the five stretches leave there, which is the launch
    contents (W_main_arg0, W_main_arg1). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Kernel.Frm

end
-- ==== Proof.FrameKI.lean ====
/- The frame certificate of the program, generic in the float family.

   @main is one reshape, one pipelined region over a grid of 64 points, and then 83 host operations in five
   stretches.  This module shows that every weakly fair run of @main terminates and that the two argument arrays
   end as they were launched.  The plan:

   * the region is entered with every buffer at its launch contents except the reshape's result (V0, V);
   * the 83 later operations allocate nothing, stay inside the unscoped buffers, and write none of five buffers:
     the three arrays the region's windows stage and the two argument arrays (one pass over the operations,
     tail_spares);
   * the kernel body reads its input block whole and overwrites each of its two output blocks whole, so what it
     leaves in each output buffer is a function of the input block alone (out0_1, out0_2, sound_kernel);
   * with proof data saying exactly that (dats), the library's frame run around a region gives the final
     contents of every unscoped buffer (run_main), and read at the two argument arrays this is the frame claim
     (frame). -/
import proofs.«419532_j28759101014353_3_alg».proof.Proof.Gen.KernelIdeal.Launch
import proofs.«419532_j28759101014353_3_alg».proof.Proof.Gen.KernelIdeal.Skeleton
import proofs.«419532_j28759101014353_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- deciding that a whole-block rectangle of 64 x 32000 tiles its shape recurses along the long axis
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host operations that follow the region, stretch by stretch, in program order. -/
local notation "tailOps" =>
  ([hostOps1, hostOps1_1, hostOps1_2, hostOps1_3, hostOps1_4] : List (List (HloOp τ sig (Elt F))))

variable (m : (ℓ : Loc nD τ sig) → Buf (Elt F) ℓ) (ρ : Dev nD → PrngReg)

/-! ## Contents at the region's entry -/

/-- What core c's unscoped buffers hold when the region is entered: the launch contents run through the single
    host operation that precedes it. -/
abbrev V0 (c : Dev nD) : Valuation τ sig (Elt F) := StableHlo.after (List.flatten [hostOps0]) (fun b => m (c, b))
/-- V0 at a TensorCore reference. -/
abbrev V (c : Dev nD) (b : Ref sig .tc) : Buf (Elt F) ((c : Thread nD τ).loc b) := V0 m c (Proc.devRef .tc b)

/-! ## What the host operations write, and what they leave alone -/

/-- An operation whose only written buffer is y does not write a reference different from y. -/
theorem not_written {op : HloOp τ sig (Elt F)} {y r : Ref sig .tc} (hw : op.writes = {Proc.devRef .tc y}) (h : r ≠ y) :
    Proc.devRef (τ := τ) .tc r ∉ op.writes := by
  rw [hw, Finset.mem_singleton]; exact StableHlo.devRef_ne_of_ne h

/-- The five buffers the later operations must leave alone: the three arrays staged by the region's windows, whose
    final contents the region fixes, and the two argument arrays of the frame claim. -/
abbrev kept : List (Ref sig .tc) := [main_v0, main_v1_0, main_v1_1, main_arg0, main_arg1]

/-- An operation whose only written buffer is y, with y outside kept, writes no buffer of kept. -/
theorem spares_of_writes {op : HloOp τ sig (Elt F)} {y : Ref sig .tc} (hw : op.writes = {Proc.devRef .tc y}) (hy : y ∉ kept) :
    ∀ r ∈ kept, Proc.devRef (τ := τ) .tc r ∉ op.writes :=
  fun r hr => not_written hw fun e => hy (e ▸ hr)

/-- No host operation allocates: each builder's set of fresh buffers is empty by definition. -/
theorem hostOps0_fresh : (hostOps0 : List (HloOp τ sig (Elt F))).Forall fun op => op.fresh = ∅ := by
  simp only [List.Forall]; and_intros <;> rfl
theorem hostOps1_fresh : (hostOps1 : List (HloOp τ sig (Elt F))).Forall fun op => op.fresh = ∅ := by
  simp only [List.Forall]; and_intros <;> rfl
theorem hostOps1_1_fresh : (hostOps1_1 : List (HloOp τ sig (Elt F))).Forall fun op => op.fresh = ∅ := by
  simp only [List.Forall]; and_intros <;> rfl
theorem hostOps1_2_fresh : (hostOps1_2 : List (HloOp τ sig (Elt F))).Forall fun op => op.fresh = ∅ := by
  simp only [List.Forall]; and_intros <;> rfl
theorem hostOps1_3_fresh : (hostOps1_3 : List (HloOp τ sig (Elt F))).Forall fun op => op.fresh = ∅ := by
  simp only [List.Forall]; and_intros <;> rfl
theorem hostOps1_4_fresh : (hostOps1_4 : List (HloOp τ sig (Elt F))).Forall fun op => op.fresh = ∅ := by
  simp only [List.Forall]; and_intros <;> rfl

/-- Each later operation writes exactly its own result buffer, and no result buffer is among kept: the 21, 22, 17,
    9 and 14 operations one by one, the result read off the builder and compared with the five references. -/
theorem hostOps1_spares : (hostOps1 : List (HloOp τ sig (Elt F))).Forall fun op => ∀ r ∈ kept, Proc.devRef (τ := τ) .tc r ∉ op.writes := by
  simp only [List.Forall]; and_intros <;> exact spares_of_writes rfl (by decide)
theorem hostOps1_1_spares : (hostOps1_1 : List (HloOp τ sig (Elt F))).Forall fun op => ∀ r ∈ kept, Proc.devRef (τ := τ) .tc r ∉ op.writes := by
  simp only [List.Forall]; and_intros <;> exact spares_of_writes rfl (by decide)
theorem hostOps1_2_spares : (hostOps1_2 : List (HloOp τ sig (Elt F))).Forall fun op => ∀ r ∈ kept, Proc.devRef (τ := τ) .tc r ∉ op.writes := by
  simp only [List.Forall]; and_intros <;> exact spares_of_writes rfl (by decide)
theorem hostOps1_3_spares : (hostOps1_3 : List (HloOp τ sig (Elt F))).Forall fun op => ∀ r ∈ kept, Proc.devRef (τ := τ) .tc r ∉ op.writes := by
  simp only [List.Forall]; and_intros <;> exact spares_of_writes rfl (by decide)
theorem hostOps1_4_spares : (hostOps1_4 : List (HloOp τ sig (Elt F))).Forall fun op => ∀ r ∈ kept, Proc.devRef (τ := τ) .tc r ∉ op.writes := by
  simp only [List.Forall]; and_intros <;> exact spares_of_writes rfl (by decide)

/-- A property of every operation of each of the five stretches is a property of every operation after the region. -/
theorem tail_forall {p : HloOp τ sig (Elt F) → Prop} (h1 : hostOps1.Forall p) (h2 : hostOps1_1.Forall p) (h3 : hostOps1_2.Forall p)
    (h4 : hostOps1_3.Forall p) (h5 : hostOps1_4.Forall p) : ∀ ops ∈ tailOps, ∀ op ∈ ops, p op := by
  intro ops hops op hop
  simp only [List.mem_cons, List.mem_nil_iff, or_false] at hops
  rcases hops with rfl | rfl | rfl | rfl | rfl
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop

/-- No operation after the region writes a buffer of kept. -/
theorem tail_spares : ∀ ops ∈ tailOps, ∀ op ∈ ops, ∀ r ∈ kept, Proc.devRef (τ := τ) .tc r ∉ op.writes :=
  tail_forall hostOps1_spares hostOps1_1_spares hostOps1_2_spares hostOps1_3_spares hostOps1_4_spares

/-- The operations after the region touch unscoped TensorCore buffers only; as the pipeline prefetches no table,
    these are exactly the buffers a line after the region may touch. -/
theorem sfx_sub : ∀ ops ∈ tailOps, ∀ op ∈ ops, op.bufs ⊆ Pipeline.tailRefs sig Pipeline.Prefetch.none spec0 := by
  rw [Pipeline.tailRefs_none spec0 launch0.win.arr_unscoped]
  exact fun ops hops op hop => Pipeline.sub_ucRefs op
    (tail_forall (p := fun op => op.bufs ⊆ StableHlo.tcRefs τ sig) hostOps1_sub hostOps1_1_sub hostOps1_2_sub hostOps1_3_sub hostOps1_4_sub ops hops op hop)
/-- They allocate nothing. -/
theorem sfx_fresh : ∀ ops ∈ tailOps, ∀ op ∈ ops, op.fresh = ∅ :=
  tail_forall hostOps1_fresh hostOps1_1_fresh hostOps1_2_fresh hostOps1_3_fresh hostOps1_4_fresh
/-- They write no array of the pipeline: each window's array is one of kept. -/
theorem sfx_keeps : ∀ ops ∈ tailOps, ∀ op ∈ ops, ∀ w, Proc.devRef .tc (Pipeline.arrRef spec0 w) ∉ op.writes :=
  fun ops hops op hop w => tail_spares ops hops op hop _ ((by decide : ∀ w, Pipeline.arrRef spec0 w ∈ kept) w)

/-! ## @main around its region -/

set_option maxHeartbeats 2000000 in
/-- @main is the reshape, the region, and then the five stretches: holding the region boundary and the unscoped
    buffers at the launch contents, it reduces to the region continued by the five stretches, entered at V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4]) :=
  Pipeline.hmain_around cfgs 0 defs₀ 𝒱₀ m main [hostOps0] tailOps (by simp only [List.Forall]; exact hostOps0_sub)
    (by simp only [List.Forall]; exact hostOps0_fresh) main_chain

/-! ## The argument arrays, before and after the region -/

/-- The reshape before the region writes its own result only, so both argument arrays enter the region as launched. -/
theorem V_of_ne (c : Dev nD) (r : Ref sig .tc) (h : r ≠ main_v0) : V m c r = m ((c : Thread nD τ).loc r) :=
  StableHlo.after_of_forall_not_mem (b := Proc.devRef .tc r) _ _ fun op hop => by
    obtain rfl := List.mem_singleton.mp hop
    exact not_written rfl h
theorem V_main_arg0 (c : Dev nD) : V m c main_arg0 = m ((c : Thread nD τ).loc main_arg0) := V_of_ne m c main_arg0 (by decide)
theorem V_main_arg1 (c : Dev nD) : V m c main_arg1 = m ((c : Thread nD τ).loc main_arg1) := V_of_ne m c main_arg1 (by decide)

/-- After the five stretches, a buffer of kept that is no window's array still holds its launch contents, whatever
    the proof data: no later operation writes it (tail_spares), the region's exit contents differ from the entry
    contents at the windows' arrays only, and the reshape did not write it. -/
theorem W_of_kept (dats : (p : Fin 1) → (c : Dev nD) → Dat τ (Elt F) Unit ℕ (UR sig nD τ) ℕ (cfgs p) c) (c : Dev nD)
    (r : Ref sig .tc) (hk : r ∈ kept) (ha : ∀ w, Pipeline.arrRef spec0 w ≠ r) (h0 : r ≠ main_v0) :
    Pipeline.afterTail₀ cfgs dats 0 (V0 m) tailOps c r = m ((c : Thread nD τ).loc r) := by
  unfold Pipeline.afterTail₀
  rw [StableHlo.after_of_forall_not_mem (b := Proc.devRef .tc r) _ _ (fun op hop => by
      obtain ⟨ops, hops, hop'⟩ := List.mem_flatten.mp hop
      exact tail_spares ops hops op hop' r hk),
    Pipeline.withArrays_of_ne _ c (V0 m c) _ r (by exact ha)]
  exact V_of_ne m c r h0
theorem W_main_arg0 (dats : (p : Fin 1) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) :=
  W_of_kept m dats c main_arg0 (by decide) (by decide) (by decide)
theorem W_main_arg1 (dats : (p : Fin 1) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) :=
  W_of_kept m dats c main_arg1 (by decide) (by decide) (by decide)

/-! ## The windows' blocks and the body's stores -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole input block [64, 32000] and the whole output block [64, 1] as rectangles: every access of the body is
    through one of the two. -/
abbrev r0 : Rect S64x32000 := Rect.unit (s := S64x32000) ![0, 0] S64x32000.size inb_S64x32000_S64x32000_0_0
abbrev r1 : Rect S64x1 := Rect.unit (s := S64x1) ![0, 0] S64x1.size inb_S64x1_S64x1_0_0

/-- What the body leaves in the first output's buffer, given the input block x0: its one store there, of the row
    maxima of x0, over the whole block. -/
def out0_1 (x0 : Vec F S64x32000 .f32) : Vec F S64x1 .f32 :=
  View.canon [⟨r1, k0_pay2 (View.ld x0 r0)⟩]
/-- What it leaves in the second output's buffer: its one store there, of the row sums of exp (x0 - row maximum),
    over the whole block. -/
def out0_2 (x0 : Vec F S64x32000 .f32) : Vec F S64x1 .f32 :=
  View.canon [⟨r1, k0_pay3 (View.ld x0 r0)⟩]

/-- A single store through r1 reaches every index of the [64, 1] block. -/
theorem cover_r1 (p : Vec F S64x1 .f32) (y : S64x1.Idx) :
    ∃ pc ∈ ([⟨r1, p⟩] : List (View.Piece (Elt F) S64x1 .f32)), y ∈ pc.1.set :=
  View.cover_of_tiled [⟨r1, p⟩] S64x1.size (by rfl) y

/-! ## The body's triple -/

set_option maxHeartbeats 1000000 in
/-- The kernel body on three whole staging memrefs — the input's holding x0, each output's holding anything — runs
    to a state where the input's still holds x0 and the outputs' hold out0_1 x0 and out0_2 x0.  It loads the input
    block, then for each output loads the buffer (the value is dropped) and stores the payload over all of it; a
    buffer overwritten everywhere reads back as the canon of that one store. -/
theorem sound_kernel (c : Dev nD) (E : Set ℕ) (i : grid0.Coords) (arg1 : Memref sig .tc .vmem S64x32000 .f32) (harg1 : arg1.IsWhole)
    (arg2 : Memref sig .tc .vmem S64x1 .f32) (harg2 : arg2.IsWhole) (arg3 : Memref sig .tc .vmem S64x1 .f32) (harg3 : arg3.IsWhole)
    (x0 : Vec F S64x32000 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__rownorm_kernel i arg1 harg1 arg2 harg2 arg3 harg3) K := by
  simp only [cc0__rownorm_kernel_eq_skeleton]; unfold cc0__rownorm_kernel_skel
  unfold owns
  iintro ⟨⟨%f0, %hf0, H0⟩, ⟨%d1, %f1, -, H1⟩, ⟨%d2, %f2, -, H2⟩, Hk⟩
  subst hf0
  -- run the three loads and two stores; what remains is the return
  sl_exec
  sl_step
  -- each output buffer, overwritten everywhere by its one store, reads back as the canon of that store
  have h1 : arg2.view.read (Elt F) (arg2.view.writes (Elt F) f1 [⟨r1, k0_pay2 (View.ld (arg1.view.read (Elt F) f0) r0)⟩])
      = out0_1 (arg1.view.read (Elt F) f0) := View.read_writes_eq_canon _ _ _ (cover_r1 _)
  have h2 : arg3.view.read (Elt F) (arg3.view.writes (Elt F) f2 [⟨r1, k0_pay3 (View.ld (arg1.view.read (Elt F) f0) r0)⟩])
      = out0_2 (arg1.view.read (Elt F) f0) := View.read_writes_eq_canon _ _ _ (cover_r1 _)
  iapply Hk
  isplitl [H0]
  · iexists f0; isplitr
    · ipureintro; rfl
    · iexact H0
  isplitl [H1]
  · iexists _; isplitr
    · ipureintro; exact h1
    · iexact H1
  · iexists _; isplitr
    · ipureintro; exact h2
    · iexact H2

/-! ## The pipeline's proof data -/

/-- The proof data of the pipeline on core c: the arrays as the region finds them; after the body at point t the
    input's buffer still at its block and the outputs' at out0_1 and out0_2 of that block; the invariant the
    library's for a body with no state of its own; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => out0_1 (iblk m c 0 t)
    | ⟨2, _⟩ => out0_2 (iblk m c 0 t)
  Φ _ := Pipeline.ΦA spec0 c
  q _ := fullShare
  owed _ := 0

/-- The proof data's arrays are the region-entry contents (a projection of the definition; V is not unfolded). -/
theorem A_eq (c : Dev nD) (w : Fin cfg0.W) : (dats m 0 c).A w = V m c (Pipeline.arrRef spec0 w) := by
  dsimp only [dats]

/-- What the body leaves, window by window (the definition's match reduced at each literal index). -/
theorem after0_0 (c : Dev nD) (t : Fin cfg0.N) : (dats m 0 c).after 0 t = iblk m c 0 t := by dsimp only [dats]
theorem after0_1 (c : Dev nD) (t : Fin cfg0.N) : (dats m 0 c).after 1 t = out0_1 (iblk m c 0 t) := by dsimp only [dats]
theorem after0_2 (c : Dev nD) (t : Fin cfg0.N) : (dats m 0 c).after 2 t = out0_2 (iblk m c 0 t) := by dsimp only [dats]

/-- The input window is fetched at every one of the 64 points, and its block is never cut, so at each point its
    current staging buffer holds exactly the block there. -/
theorem before0_0 (c : Dev nD) (t : Fin cfg0.N) (d) : (dats m 0 c).before 0 t d = iblk m c 0 t :=
  ((dats m 0 c).before_fetched 0 t (fetch0_0 t) d).trans (by
    unfold Dat.fetched Dat.blockOf iblk; rw [A_eq]; try rfl)

/-! ## The body obligation -/

/-- What the pipeline calls the body with at point t: the invariant, the core's debt, and the three current staging
    buffers, each at what the proof data says it finds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What the body must return: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point meets it: the input's buffer holds the block (before0_0), the outputs' hold something, so
    sound_kernel applies at x0 the block; the invariant and the debt are constant in the point and are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point: its conjunction over the windows is the three-fold one above. -/
theorem body_obligation (c : Dev nD) : BodyObligation (dats (F := F) m 0 c) (defs₀ (F := F)) Variants.none () Set.univ := fun t => by
  rw [bigSep_W0, bigSep_W0]
  exact sound_body m c t

/-! ## The run and the frame -/

-- the implicit arguments of the library's frame run are found by unifying its conclusion with the statement, which
-- needs plain definitions unfolded inside a metavariable's type
set_option backward.isDefEq.respectTransparency.types false in
set_option maxHeartbeats 2000000 in
/-- At the compiled mesh, for any values, from any memory with zero counters: every weakly fair execution of @main on
    the TensorCores terminates, and in every final state each array of the pipeline holds what the library computes
    from the proof data, and every other unscoped buffer holds what the five stretches leave there. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- THE FRAME, at any float family: @main terminates and both argument arrays end as launched.  Neither is a
    window's array, so the run's post gives each at what the five stretches leave there, which is the launch
    contents (W_main_arg0, W_main_arg1). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Frm

end
-- ==== Proof.Spec.lean ====
/-
  The two programs of this certificate as pure functions of the argument arrays, over literal shapes.

  Both compute, for every batch b, penalised timestep t (the rows t + 10 of the sequence) and window slot j, the
  softmax probability of the token `w[b, t, j] = ids[b, t + j]` under the logits row `x[b, t + 10, ·]`, drop the
  slots whose token already occurred at an earlier slot of the same window, add everything up and scale by
  0.2 / 4076.  The REFERENCE normalises the whole row first (`probs`) and gathers the probability; the KERNEL
  gathers the raw logit and finishes the softmax on the gathered entry only, from the row maximum and the row sum of
  exponentials that its pallas_call computed for all 4096 rows (`A1`, `A2`).  The integer side — the windows, the
  normalised gather index, the in-bounds mask, the first-occurrence mask — is the same text in both.
-/
import Idealize.ShloMosaic.PureOps
import Idealize.ShloMosaic.PureOps.Ideal
import Idealize.ShloMosaic.Lib.ValueIdx

noncomputable section

namespace Cert.Spec

open Idealize.ShloMosaic

abbrev S2x2048x32000 : Shape := ⟨3, ![2, 2048, 32000]⟩
abbrev S2x2048 : Shape := ⟨2, ![2, 2048]⟩
abbrev S4096x32000 : Shape := ⟨2, ![4096, 32000]⟩
abbrev S4096x1 : Shape := ⟨2, ![4096, 1]⟩
abbrev S2x2038 : Shape := ⟨2, ![2, 2038]⟩
abbrev S2038 : Shape := ⟨1, ![2038]⟩
abbrev S2038x1 : Shape := ⟨2, ![2038, 1]⟩
abbrev S10 : Shape := ⟨1, ![10]⟩
abbrev S1x10 : Shape := ⟨2, ![1, 10]⟩
abbrev S2038x10 : Shape := ⟨2, ![2038, 10]⟩
abbrev S_ : Shape := ⟨0, ![]⟩
abbrev S2038x10x1 : Shape := ⟨3, ![2038, 10, 1]⟩
abbrev S2x2038x10 : Shape := ⟨3, ![2, 2038, 10]⟩
abbrev S2x2038x32000 : Shape := ⟨3, ![2, 2038, 32000]⟩
abbrev S2x2038x10x1 : Shape := ⟨4, ![2, 2038, 10, 1]⟩
abbrev S1 : Shape := ⟨1, ![1]⟩
abbrev S1x1x1x1 : Shape := ⟨4, ![1, 1, 1, 1]⟩
abbrev S2x2038x1 : Shape := ⟨3, ![2, 2038, 1]⟩
abbrev S2x2038x1x10 : Shape := ⟨4, ![2, 2038, 1, 10]⟩
abbrev S2x2038x10x10 : Shape := ⟨4, ![2, 2038, 10, 10]⟩
abbrev S10x10 : Shape := ⟨2, ![10, 10]⟩
abbrev S1x1x10x10 : Shape := ⟨4, ![1, 1, 10, 10]⟩

/-! ## The shape relations the operations take (each decided on the literal shapes) -/

theorem shapeCasts_S2x2048x32000_S4096x32000 : S2x2048x32000.ShapeCasts S4096x32000 := by decide
theorem shapeCasts_S4096x1_S2x2048 : S4096x1.ShapeCasts S2x2048 := by decide
theorem slices_S2x2048_S2x2038_0_10 : S2x2048.Slices ![0, 10] S2x2038 := by decide
theorem bcast_S2038_S2038x1_0 : S2038.BroadcastsInDim S2038x1 (![0] : Fin 1 → Fin S2038x1.rank) := by decide
theorem bcast_S10_S1x10_1 : S10.BroadcastsInDim S1x10 (![1] : Fin 1 → Fin S1x10.rank) := by decide
theorem bcast_S2038x1_S2038x10_0_1 : S2038x1.BroadcastsInDim S2038x10 (![0, 1] : Fin 2 → Fin S2038x10.rank) := by decide
theorem bcast_S1x10_S2038x10_0_1 : S1x10.BroadcastsInDim S2038x10 (![0, 1] : Fin 2 → Fin S2038x10.rank) := by decide
theorem bcast_S_S2038x10 : S_.BroadcastsInDim S2038x10 (![] : Fin 0 → Fin S2038x10.rank) := by decide
theorem bcast_S2038x10_S2038x10x1_0_1 : S2038x10.BroadcastsInDim S2038x10x1 (![0, 1] : Fin 2 → Fin S2038x10x1.rank) := by decide
theorem slices_S2x2048x32000_S2x2038x32000_0_10_0 : S2x2048x32000.Slices ![0, 10, 0] S2x2038x32000 := by decide
theorem bcast_S_S2x2038x10 : S_.BroadcastsInDim S2x2038x10 (![] : Fin 0 → Fin S2x2038x10.rank) := by decide
theorem shapeCasts_S2x2038x10_S2x2038x10x1 : S2x2038x10.ShapeCasts S2x2038x10x1 := by decide
theorem bcast_S_S2x2038x10x1 : S_.BroadcastsInDim S2x2038x10x1 (![] : Fin 0 → Fin S2x2038x10x1.rank) := by decide
theorem bcast_S1_S1x1x1x1_3 : S1.BroadcastsInDim S1x1x1x1 (![3] : Fin 1 → Fin S1x1x1x1.rank) := by decide
theorem bcast_S1x1x1x1_S2x2038x10x1_0_1_2_3 : S1x1x1x1.BroadcastsInDim S2x2038x10x1 (![0, 1, 2, 3] : Fin 4 → Fin S2x2038x10x1.rank) := by decide
theorem reducesTo_S2x2038x10x1_S2x2038x10_d3 : S2x2038x10x1.ReducesTo [3] S2x2038x10 := by decide
theorem h_S_ : 0 < S_.numel := by decide
theorem bcast_S_S2x2038 : S_.BroadcastsInDim S2x2038 (![] : Fin 0 → Fin S2x2038.rank) := by decide
theorem bcast_S2x2038_S2x2038x1_0_1 : S2x2038.BroadcastsInDim S2x2038x1 (![0, 1] : Fin 2 → Fin S2x2038x1.rank) := by decide
theorem bcast_S2x2038x1_S2x2038x10_0_1_2 : S2x2038x1.BroadcastsInDim S2x2038x10 (![0, 1, 2] : Fin 3 → Fin S2x2038x10.rank) := by decide
theorem bcast_S2x2038x10_S2x2038x10x1_0_1_2 : S2x2038x10.BroadcastsInDim S2x2038x10x1 (![0, 1, 2] : Fin 3 → Fin S2x2038x10x1.rank) := by decide
theorem bcast_S2x2038x10_S2x2038x1x10_0_1_3 : S2x2038x10.BroadcastsInDim S2x2038x1x10 (![0, 1, 3] : Fin 3 → Fin S2x2038x1x10.rank) := by decide
theorem bcast_S2x2038x10x1_S2x2038x10x10_0_1_2_3 : S2x2038x10x1.BroadcastsInDim S2x2038x10x10 (![0, 1, 2, 3] : Fin 4 → Fin S2x2038x10x10.rank) := by decide
theorem bcast_S2x2038x1x10_S2x2038x10x10_0_1_2_3 : S2x2038x1x10.BroadcastsInDim S2x2038x10x10 (![0, 1, 2, 3] : Fin 4 → Fin S2x2038x10x10.rank) := by decide
theorem bcast_S_S10x10 : S_.BroadcastsInDim S10x10 (![] : Fin 0 → Fin S10x10.rank) := by decide
theorem bcast_S10x10_S1x1x10x10_2_3 : S10x10.BroadcastsInDim S1x1x10x10 (![2, 3] : Fin 2 → Fin S1x1x10x10.rank) := by decide
theorem bcast_S1x1x10x10_S2x2038x10x10_0_1_2_3 : S1x1x10x10.BroadcastsInDim S2x2038x10x10 (![0, 1, 2, 3] : Fin 4 → Fin S2x2038x10x10.rank) := by decide
theorem reducesTo_S2x2038x10x10_S2x2038x10_d3 : S2x2038x10x10.ReducesTo [3] S2x2038x10 := by decide
theorem reducesTo_S2x2038x10_S_d0_1_2 : S2x2038x10.ReducesTo [0, 1, 2] S_ := by decide
theorem reducesTo_S2x2038x32000_S2x2038_d2 : S2x2038x32000.ReducesTo [2] S2x2038 := by decide
theorem bcast_S2x2038x1_S2x2038x32000_0_1_2 : S2x2038x1.BroadcastsInDim S2x2038x32000 (![0, 1, 2] : Fin 3 → Fin S2x2038x32000.rank) := by decide
theorem gatherWin_wf : GatherDims.WF S2x2048 S2038x10x1 S2x2038x10 [0] [1] [] [1] [] 2 ![2, 1] := by decide
theorem gatherTok_wf : GatherDims.WF S2x2038x32000 S2x2038x10x1 S2x2038x10 [] [2] [0, 1] [2] [0, 1] 3 ![1, 1, 1] := by decide

/-- `ids[:, pos]`: whole columns of the [2, 2048] token array at the positions a [2038, 10, 1] index array names. -/
def gatherWin : GatherDims S2x2048 S2038x10x1 S2x2038x10 where
  offsetDims := [0]
  collapsedSliceDims := [1]
  operandBatchingDims := []
  startIndicesBatchingDims := []
  startIndexMap := [1]
  indexVectorDim := 2
  sliceSizes := ![2, 1]
  wf := gatherWin_wf
/-- `take_along_axis(·, w, axis = -1)`: element (b, t, j) reads row (b, t) of the operand at the vocabulary index
    the [2, 2038, 10, 1] index array holds there; axes 0 and 1 are batching axes. -/
def gatherTok : GatherDims S2x2038x32000 S2x2038x10x1 S2x2038x10 where
  offsetDims := []
  collapsedSliceDims := [2]
  operandBatchingDims := [0, 1]
  startIndicesBatchingDims := [0, 1]
  startIndexMap := [2]
  indexVectorDim := 3
  sliceSizes := ![1, 1, 1]
  wf := gatherTok_wf

variable {F : FTy → Type} [FloatOps F]

/-! ## The integer side, shared by the two programs -/

/-- `t + j` over [2038, 10]. -/
def posSum : IVec S2038x10 32 :=
  addi (broadcastInDim S2038x10 ![0, 1] bcast_S2038x1_S2038x10_0_1 (broadcastInDim S2038x1 ![0] bcast_S2038_S2038x1_0 (iotaInDim S2038 32 0)))
    (broadcastInDim S2038x10 ![0, 1] bcast_S1x10_S2038x10_0_1 (broadcastInDim S1x10 ![1] bcast_S10_S1x10_1 (iotaInDim S10 32 0)))

/-- The positions of the window before timestep t + 10, negative ones wrapped by the sequence length, as the index
    array of the first gather. -/
def winPos : IVec S2038x10x1 32 :=
  broadcastInDim S2038x10x1 ![0, 1] bcast_S2038x10_S2038x10x1_0_1
    (select (cmpi .slt posSum (broadcastInDim S2038x10 ![] bcast_S_S2038x10 (constantI S_ 32 0#32)))
      (addi posSum (broadcastInDim S2038x10 ![] bcast_S_S2038x10 (constantI S_ 32 2048#32))) posSum)

/-- The windows `w[b, t, j] = ids[b, t + j]`. -/
def windows (ids : IVec S2x2048 32) : IVec S2x2038x10 32 := Host.gather gatherWin ids winPos

/-- The gather index of `take_along_axis`: a negative token wrapped once by the vocabulary size. -/
def normIdx (w : IVec S2x2038x10 32) : IVec S2x2038x10x1 32 :=
  shapeCast S2x2038x10x1
    (select (cmpi .slt w (broadcastInDim S2x2038x10 ![] bcast_S_S2x2038x10 (constantI S_ 32 0#32)))
      (addi w (broadcastInDim S2x2038x10 ![] bcast_S_S2x2038x10 (constantI S_ 32 32000#32))) w)
    shapeCasts_S2x2038x10_S2x2038x10x1

/-- Whether the wrapped index lies in [0, 31999]. -/
def inBounds (n : IVec S2x2038x10x1 32) : IVec S2x2038x10 1 :=
  Host.reduce IntOp.andi
    (andi (cmpi .sge n (broadcastInDim S2x2038x10x1 ![] bcast_S_S2x2038x10x1 (constantI S_ 32 0#32)))
      (cmpi .sle n (broadcastInDim S2x2038x10x1 ![0, 1, 2, 3] bcast_S1x1x1x1_S2x2038x10x1_0_1_2_3
        (broadcastInDim S1x1x1x1 ![3] bcast_S1_S1x1x1x1_3 (constantI S1 32 31999#32)))))
    (constantI S_ 1 1#1) reducesTo_S2x2038x10x1_S2x2038x10_d3 h_S_

/-- `take_along_axis(y, w, axis = -1)` in fill mode: the gathered entry, or the fill pattern where the index is out of bounds. -/
def takeAlong (y : FVec F S2x2038x32000 .f32) (w : IVec S2x2038x10 32) : FVec F S2x2038x10 .f32 :=
  select (inBounds (normIdx w)) (Host.gather gatherTok y (normIdx w))
    (broadcastInDim S2x2038x10 ![] bcast_S_S2x2038x10 (constant S_ .f32 0x7FC00000#32))

/-- The strictly lower triangle of a 10 × 10 all-true matrix: entry (j, i) is true iff i < j. -/
def strictLower : IVec S10x10 1 :=
  select (cmpi .sge (addi (iotaInDim S10x10 32 0) (broadcastInDim S10x10 ![] bcast_S_S10x10 (constantI S_ 32 4294967295#32))) (iotaInDim S10x10 32 1))
    (broadcastInDim S10x10 ![] bcast_S_S10x10 (constantI S_ 1 1#1))
    (broadcastInDim S10x10 ![] bcast_S_S10x10 (constantI S_ 1 0#1))

/-- 1.0 at a slot whose token occurs at no earlier slot of its window, 0.0 elsewhere. -/
def keep (w : IVec S2x2038x10 32) : FVec F S2x2038x10 .f32 :=
  uitofp .f32 (noti (Host.reduce IntOp.ori
    (andi
      (cmpi .eq
        (broadcastInDim S2x2038x10x10 ![0, 1, 2, 3] bcast_S2x2038x10x1_S2x2038x10x10_0_1_2_3 (broadcastInDim S2x2038x10x1 ![0, 1, 2] bcast_S2x2038x10_S2x2038x10x1_0_1_2 w))
        (broadcastInDim S2x2038x10x10 ![0, 1, 2, 3] bcast_S2x2038x1x10_S2x2038x10x10_0_1_2_3 (broadcastInDim S2x2038x1x10 ![0, 1, 3] bcast_S2x2038x10_S2x2038x1x10_0_1_3 w)))
      (broadcastInDim S2x2038x10x10 ![0, 1, 2, 3] bcast_S1x1x10x10_S2x2038x10x10_0_1_2_3 (broadcastInDim S1x1x10x10 ![2, 3] bcast_S10x10_S1x1x10x10_2_3 strictLower)))
    (constantI S_ 1 0#1) reducesTo_S2x2038x10x10_S2x2038x10_d3 h_S_))

/-- The common end: mask by `keep`, add everything, scale by 0.2 and divide by 4076. -/
def finish (g k : FVec F S2x2038x10 .f32) : FVec F S_ .f32 :=
  Host.divf (mulf (constant S_ .f32 0x3E4CCCCD#32) (Host.reduceAdd (mulf g k) (constant S_ .f32 0x00000000#32) reducesTo_S2x2038x10_S_d0_1_2 h_S_))
    (constant S_ .f32 0x457EC000#32)

/-- The logits of the penalised timesteps: rows 10 … 2047 of every batch. -/
def tailRows (x : FVec F S2x2048x32000 .f32) : FVec F S2x2038x32000 .f32 :=
  extractStridedSlice S2x2038x32000 ![0, 10, 0] x slices_S2x2048x32000_S2x2038x32000_0_10_0

/-! ## The reference -/

/-- The row maxima of the reference's softmax (a maximum with -∞ in front, as jax prints it). -/
def refMax (y : FVec F S2x2038x32000 .f32) : FVec F S2x2038 .f32 :=
  maximumf (broadcastInDim S2x2038 ![] bcast_S_S2x2038 (constant S_ .f32 0xFF800000#32))
    (Host.reduce FloatOps.maximumf y (constant S_ .f32 0xFF800000#32) reducesTo_S2x2038x32000_S2x2038_d2 h_S_)

/-- `exp(y - max)` over the whole array. -/
def refExp (y : FVec F S2x2038x32000 .f32) : FVec F S2x2038x32000 .f32 :=
  Host.exp (subf y (broadcastInDim S2x2038x32000 ![0, 1, 2] bcast_S2x2038x1_S2x2038x32000_0_1_2 (broadcastInDim S2x2038x1 ![0, 1] bcast_S2x2038_S2x2038x1_0_1 (refMax y))))

/-- `softmax(y, axis = -1)`. -/
def probs (y : FVec F S2x2038x32000 .f32) : FVec F S2x2038x32000 .f32 :=
  Host.divf (refExp y)
    (broadcastInDim S2x2038x32000 ![0, 1, 2] bcast_S2x2038x1_S2x2038x32000_0_1_2 (broadcastInDim S2x2038x1 ![0, 1] bcast_S2x2038_S2x2038x1_0_1
      (Host.reduceAdd (refExp y) (constant S_ .f32 0x00000000#32) reducesTo_S2x2038x32000_S2x2038_d2 h_S_)))

/-- The reference's result as a function of the two argument arrays. -/
def refTerm (x : FVec F S2x2048x32000 .f32) (ids : IVec S2x2048 32) : FVec F S_ .f32 :=
  finish (takeAlong (probs (tailRows x)) (windows ids)) (keep (windows ids))

/-! ## The kernel's host side, over the two arrays its pallas_call leaves -/

/-- A [4096, 1] column of per-row statistics re-laid as [2, 2048] and cut to the penalised timesteps. -/
def statRows (A : FVec F S4096x1 .f32) : FVec F S2x2038 .f32 :=
  extractStridedSlice S2x2038 ![0, 10] (shapeCast S2x2048 A shapeCasts_S4096x1_S2x2048) slices_S2x2048_S2x2038_0_10

/-- A per-row statistic spread over the ten window slots. -/
def overSlots (s : FVec F S2x2038 .f32) : FVec F S2x2038x10 .f32 :=
  broadcastInDim S2x2038x10 ![0, 1, 2] bcast_S2x2038x1_S2x2038x10_0_1_2 (broadcastInDim S2x2038x1 ![0, 1] bcast_S2x2038_S2x2038x1_0_1 s)

/-- The kernel's gathered probabilities: `exp(logit - rowmax) · (1 / rowsum)` at the gathered entries only. -/
def kerGathered (x : FVec F S2x2048x32000 .f32) (w : IVec S2x2038x10 32) (A1 A2 : FVec F S4096x1 .f32) : FVec F S2x2038x10 .f32 :=
  mulf (Host.exp (subf (takeAlong (tailRows x) w) (overSlots (statRows A1))))
    (overSlots (Host.divf (broadcastInDim S2x2038 ![] bcast_S_S2x2038 (constant S_ .f32 0x3F800000#32)) (statRows A2)))

/-- The kernel's result as a function of the two argument arrays and of the row maxima `A1` and row sums `A2`. -/
def kerTerm (x : FVec F S2x2048x32000 .f32) (ids : IVec S2x2048 32) (A1 A2 : FVec F S4096x1 .f32) : FVec F S_ .f32 :=
  finish (kerGathered x (windows ids) A1 A2) (keep (windows ids))

/-! ## What the pallas_call leaves: per row of the [4096, 32000] re-laid logits, its maximum and its sum of exponentials -/

open Idealize.ShloMosaic.ValueIdx

/-- The logits re-laid as 4096 rows: row `2048 · b + s` is `x[b, s, ·]`. -/
def flatRows (x : FVec F S2x2048x32000 .f32) : FVec F S4096x32000 .f32 :=
  shapeCast S4096x32000 x shapeCasts_S2x2048x32000_S4096x32000

/-- The maximum of a row of extended reals: the fold of `max` from -∞ over its entries. -/
def foldMax {n : Nat} (f : Fin n → EReal) : EReal := (Finset.univ : Finset (Fin n)).fold max (⊥ : EReal) f

/-- The sum of `exp (f k - max f)` over a row. -/
def expSum {n : Nat} (f : Fin n → EReal) : EReal := ∑ k : Fin n, Ideal.exp (f k - foldMax f)

/-- The row maxima as the [4096, 1] array the first output window holds. -/
def rowMaxArr (X : FVec Ideal S4096x32000 .f32) : FVec Ideal S4096x1 .f32 :=
  fun i => foldMax fun k : Fin 32000 => X (ix2 (i 0 : Fin 4096) k)

/-- The row sums of exponentials as the [4096, 1] array the second output window holds. -/
def rowSumArr (X : FVec Ideal S4096x32000 .f32) : FVec Ideal S4096x1 .f32 :=
  fun i => expSum fun k : Fin 32000 => X (ix2 (i 0 : Fin 4096) k)

/-- Row (b, t + 10) of the logits: the row every quantity at (b, t, ·) is computed from. -/
def logitRow (x : FVec Ideal S2x2048x32000 .f32) (b : Fin 2) (t : Fin 2038) : Fin 32000 → EReal :=
  fun k => x (ix3 b (⟨t.val + 10, by omega⟩ : Fin 2048) k)

end Cert.Spec

end
-- ==== Proof.RefValue.lean ====
/-
  The reference's result as a function of its two arguments.  Its 83 host operations are read in seven stretches —
  the softmax of the penalised rows; the windows of tokens; `take_along_axis`; the pairwise comparison of a window's
  tokens; the strictly lower triangle; the first-occurrence mask; the masked sum and its scaling — each stretch as ONE
  function of the buffers it reads, over any contents of the buffers; the fold over the whole list is their
  composition.
-/
import proofs.«419532_j28759101014353_3_alg».proof.Proof.RefRun
import proofs.«419532_j28759101014353_3_alg».proof.Proof.Spec
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The softmax of rows 10 … 2047 of the logits, over the vocabulary axis. -/
abbrev opsSoftmax : List (HloOp τ sig (Elt F)) :=
  [ unary main_arg0 main_v0 ((extractStridedSlice S2x2038x32000 ![0, 10, 0] · slices_S2x2048x32000_S2x2038x32000_0_10_0) : (⟨S2x2048x32000, .f32⟩ : BufTy).Contents (Elt F) → (⟨S2x2038x32000, .f32⟩ : BufTy).Contents (Elt F)),
    nullary main_cst (constant S_ .f32 0xFF800000#32),
    binary main_v0 main_cst main_v1 ((fun x v => Host.reduce FloatOps.maximumf x v reducesTo_S2x2038x32000_S2x2038_d2 h_S_) : (⟨S2x2038x32000, .f32⟩ : BufTy).Contents (Elt F) → (⟨S_, .f32⟩ : BufTy).Contents (Elt F) → (⟨S2x2038, .f32⟩ : BufTy).Contents (Elt F)),
    nullary main_cst_0 (constant S_ .f32 0xFF800000#32),
    unary main_cst_0 main_v2 (broadcastInDim S2x2038 ![] bcast_S_S2x2038 : (⟨S_, .f32⟩ : BufTy).Contents (Elt F) → (⟨S2x2038, .f32⟩ : BufTy).Contents (Elt F)),
    binary main_v2 main_v1 main_v3 (maximumf : (⟨S2x2038, .f32⟩ : BufTy).Contents (Elt F) → (⟨S2x2038, .f32⟩ : BufTy).Contents (Elt F) → (⟨S2x2038, .f32⟩ : BufTy).Contents (Elt F)),
    unary main_v3 main_v4 (broadcastInDim S2x2038x1 ![0, 1] bcast_S2x2038_S2x2038x1_0_1 : (⟨S2x2038, .f32⟩ : BufTy).Contents (Elt F) → (⟨S2x2038x1, .f32⟩ : BufTy).Contents (Elt F)),
    unary main_v4 main_v5 (broadcastInDim S2x2038x32000 ![0, 1, 2] bcast_S2x2038x1_S2x2038x32000_0_1_2 : (⟨S2x2038x1, .f32⟩ : BufTy).Contents (Elt F) → (⟨S2x2038x32000, .f32⟩ : BufTy).Contents (Elt F)),
    binary main_v0 main_v5 main_v6 (subf : (⟨S2x2038x32000, .f32⟩ : BufTy).Contents (Elt F) → (⟨S2x2038x32000, .f32⟩ : BufTy).Contents (Elt F) → (⟨S2x2038x32000, .f32⟩ : BufTy).Contents (Elt F)),
    unary main_v6 main_v7 (Host.exp : (⟨S2x2038x32000, .f32⟩ : BufTy).Contents (Elt F) → (⟨S2x2038x32000, .f32⟩ : BufTy).Contents (Elt F)),
    nullary main_cst_1 (constant S_ .f32 0x00000000#32),
    binary main_v7 main_cst_1 main_v8 ((fun x v => Host.reduceAdd x v reducesTo_S2x2038x32000_S2x2038_d2 h_S_) : (⟨S2x2038x32000, .f32⟩ : BufTy).Contents (Elt F) → (⟨S_, .f32⟩ : BufTy).Contents (Elt F) → (⟨S2x2038, .f32⟩ : BufTy).Contents (Elt F)),
    unary main_v8 main_v9 (broadcastInDim S2x2038x1 ![0, 1] bcast_S2x2038_S2x2038x1_0_1 : (⟨S2x2038, .f32⟩ : BufTy).Contents (Elt F) → (⟨S2x2038x1, .f32⟩ : BufTy).Contents (Elt F)),
    unary main_v9 main_v10 (broadcastInDim S2x2038x32000 ![0, 1, 2] bcast_S2x2038x1_S2x2038x32000_0_1_2 : (⟨S2x2038x1, .f32⟩ : BufTy).Contents (Elt F) → (⟨S2x2038x32000, .f32⟩ : BufTy).Contents (Elt F)),
    binary main_v7 main_v10 main_v11 (Host.divf : (⟨S2x2038x32000, .f32⟩ : BufTy).Contents (Elt F) → (⟨S2x2038x32000, .f32⟩ : BufTy).Contents (Elt F) → (⟨S2x2038x32000, .f32⟩ : BufTy).Contents (Elt F)) ]

/-- The windows of the ten tokens before each penalised timestep. -/
abbrev opsWindows : List (HloOp τ sig (Elt F)) :=
  [ nullary main_v12 (iotaInDim S2038 32 0),
    unary main_v12 main_v13 (broadcastInDim S2038x1 ![0] bcast_S2038_S2038x1_0 : (⟨S2038, .i32⟩ : BufTy).Contents (Elt F) → (⟨S2038x1, .i32⟩ : BufTy).Contents (Elt F)),
    nullary main_v14 (iotaInDim S10 32 0),
    unary main_v14 main_v15 (broadcastInDim S1x10 ![1] bcast_S10_S1x10_1 : (⟨S10, .i32⟩ : BufTy).Contents (Elt F) → (⟨S1x10, .i32⟩ : BufTy).Contents (Elt F)),
    unary main_v13 main_v16 (broadcastInDim S2038x10 ![0, 1] bcast_S2038x1_S2038x10_0_1 : (⟨S2038x1, .i32⟩ : BufTy).Contents (Elt F) → (⟨S2038x10, .i32⟩ : BufTy).Contents (Elt F)),
    unary main_v15 main_v17 (broadcastInDim S2038x10 ![0, 1] bcast_S1x10_S2038x10_0_1 : (⟨S1x10, .i32⟩ : BufTy).Contents (Elt F) → (⟨S2038x10, .i32⟩ : BufTy).Contents (Elt F)),
    binary main_v16 main_v17 main_v18 (addi : (⟨S2038x10, .i32⟩ : BufTy).Contents (Elt F) → (⟨S2038x10, .i32⟩ : BufTy).Contents (Elt F) → (⟨S2038x10, .i32⟩ : BufTy).Contents (Elt F)),
    nullary main_c (constantI S_ 32 0#32),
    unary main_c main_v19 (broadcastInDim S2038x10 ![] bcast_S_S2038x10 : (⟨S_, .i32⟩ : BufTy).Contents (Elt F) → (⟨S2038x10, .i32⟩ : BufTy).Contents (Elt F)),
    binary main_v18 main_v19 main_v20 (cmpi .slt : (⟨S2038x10, .i32⟩ : BufTy).Contents (Elt F) → (⟨S2038x10, .i32⟩ : BufTy).Contents (Elt F) → (⟨S2038x10, .i1⟩ : BufTy).Contents (Elt F)),
    nullary main_c_2 (constantI S_ 32 2048#32),
    unary main_c_2 main_v21 (broadcastInDim S2038x10 ![] bcast_S_S2038x10 : (⟨S_, .i32⟩ : BufTy).Contents (Elt F) → (⟨S2038x10, .i32⟩ : BufTy).Contents (Elt F)),
    binary main_v18 main_v21 main_v22 (addi : (⟨S2038x10, .i32⟩ : BufTy).Contents (Elt F) → (⟨S2038x10, .i32⟩ : BufTy).Contents (Elt F) → (⟨S2038x10, .i32⟩ : BufTy).Contents (Elt F)),
    ternary main_v20 main_v22 main_v18 main_v23 (select : (⟨S2038x10, .i1⟩ : BufTy).Contents (Elt F) → (⟨S2038x10, .i32⟩ : BufTy).Contents (Elt F) → (⟨S2038x10, .i32⟩ : BufTy).Contents (Elt F) → (⟨S2038x10, .i32⟩ : BufTy).Contents (Elt F)),
    unary main_v23 main_v24 (broadcastInDim S2038x10x1 ![0, 1] bcast_S2038x10_S2038x10x1_0_1 : (⟨S2038x10, .i32⟩ : BufTy).Contents (Elt F) → (⟨S2038x10x1, .i32⟩ : BufTy).Contents (Elt F)),
    binary main_arg1 main_v24 main_v25 ((fun x i => Host.gather gather_S2x2048_S2038x10x1_S2x2038x10_0_1_n_n_1_2_21 x i) : (⟨S2x2048, .i32⟩ : BufTy).Contents (Elt F) → (⟨S2038x10x1, .i32⟩ : BufTy).Contents (Elt F) → (⟨S2x2038x10, .i32⟩ : BufTy).Contents (Elt F)) ]

/-- `take_along_axis` of the probabilities at the window tokens (jax's outlined function, in place). -/
abbrev opsTake : List (HloOp τ sig (Elt F)) :=
  [ TRef.nullary (TRef.of (T := ⟨S_, .i32⟩) main_call0_c) (constantI S_ 32 0#32),
    TRef.unary (TRef.of (T := ⟨S_, .i32⟩) main_call0_c) (TRef.of (T := ⟨S2x2038x10, .i32⟩) main_call0_v0) (broadcastInDim S2x2038x10 ![] bcast_S_S2x2038x10),
    TRef.binary (TRef.of (T := ⟨S2x2038x10, .i32⟩) main_v25) (TRef.of (T := ⟨S2x2038x10, .i32⟩) main_call0_v0) (TRef.of (T := ⟨S2x2038x10, .i1⟩) main_call0_v1) (cmpi .slt),
    TRef.nullary (TRef.of (T := ⟨S_, .i32⟩) main_call0_c_0) (constantI S_ 32 32000#32),
    TRef.unary (TRef.of (T := ⟨S_, .i32⟩) main_call0_c_0) (TRef.of (T := ⟨S2x2038x10, .i32⟩) main_call0_v2) (broadcastInDim S2x2038x10 ![] bcast_S_S2x2038x10),
    TRef.binary (TRef.of (T := ⟨S2x2038x10, .i32⟩) main_v25) (TRef.of (T := ⟨S2x2038x10, .i32⟩) main_call0_v2) (TRef.of (T := ⟨S2x2038x10, .i32⟩) main_call0_v3) addi,
    TRef.ternary (TRef.of (T := ⟨S2x2038x10, .i1⟩) main_call0_v1) (TRef.of (T := ⟨S2x2038x10, .i32⟩) main_call0_v3) (TRef.of (T := ⟨S2x2038x10, .i32⟩) main_v25) (TRef.of (T := ⟨S2x2038x10, .i32⟩) main_call0_v4) select,
    TRef.reshape (TRef.of (T := ⟨S2x2038x10, .i32⟩) main_call0_v4) (TRef.of (T := ⟨S2x2038x10x1, .i32⟩) main_call0_v5) rfl shapeCasts_S2x2038x10_S2x2038x10x1,
    TRef.nullary (TRef.of (T := ⟨S1, .i32⟩) main_call0_c_1) (constantI S1 32 31999#32),
    TRef.nullary (TRef.of (T := ⟨S_, .i32⟩) main_call0_c_2) (constantI S_ 32 0#32),
    TRef.unary (TRef.of (T := ⟨S_, .i32⟩) main_call0_c_2) (TRef.of (T := ⟨S2x2038x10x1, .i32⟩) main_call0_v6) (broadcastInDim S2x2038x10x1 ![] bcast_S_S2x2038x10x1),
    TRef.binary (TRef.of (T := ⟨S2x2038x10x1, .i32⟩) main_call0_v5) (TRef.of (T := ⟨S2x2038x10x1, .i32⟩) main_call0_v6) (TRef.of (T := ⟨S2x2038x10x1, .i1⟩) main_call0_v7) (cmpi .sge),
    TRef.unary (TRef.of (T := ⟨S1, .i32⟩) main_call0_c_1) (TRef.of (T := ⟨S1x1x1x1, .i32⟩) main_call0_v8) (broadcastInDim S1x1x1x1 ![3] bcast_S1_S1x1x1x1_3),
    TRef.unary (TRef.of (T := ⟨S1x1x1x1, .i32⟩) main_call0_v8) (TRef.of (T := ⟨S2x2038x10x1, .i32⟩) main_call0_v9) (broadcastInDim S2x2038x10x1 ![0, 1, 2, 3] bcast_S1x1x1x1_S2x2038x10x1_0_1_2_3),
    TRef.binary (TRef.of (T := ⟨S2x2038x10x1, .i32⟩) main_call0_v5) (TRef.of (T := ⟨S2x2038x10x1, .i32⟩) main_call0_v9) (TRef.of (T := ⟨S2x2038x10x1, .i1⟩) main_call0_v10) (cmpi .sle),
    TRef.binary (TRef.of (T := ⟨S2x2038x10x1, .i1⟩) main_call0_v7) (TRef.of (T := ⟨S2x2038x10x1, .i1⟩) main_call0_v10) (TRef.of (T := ⟨S2x2038x10x1, .i1⟩) main_call0_v11) andi,
    TRef.nullary (TRef.of (T := ⟨S_, .i1⟩) main_call0_c_3) (constantI S_ 1 1#1),
    TRef.binary (TRef.of (T := ⟨S2x2038x10x1, .i1⟩) main_call0_v11) (TRef.of (T := ⟨S_, .i1⟩) main_call0_c_3) (TRef.of (T := ⟨S2x2038x10, .i1⟩) main_call0_v12) (fun x v => Host.reduce IntOp.andi x v reducesTo_S2x2038x10x1_S2x2038x10_d3 h_S_),
    TRef.binary (TRef.of (T := ⟨S2x2038x32000, .f32⟩) main_v11) (TRef.of (T := ⟨S2x2038x10x1, .i32⟩) main_call0_v5) (TRef.of (T := ⟨S2x2038x10, .f32⟩) main_call0_v13) (fun x i => Host.gather gather_S2x2038x32000_S2x2038x10x1_S2x2038x10_n_2_01_01_2_3_111 x i),
    TRef.nullary (TRef.of (T := ⟨S_, .f32⟩) main_call0_cst) (constant S_ .f32 0x7FC00000#32),
    TRef.unary (TRef.of (T := ⟨S_, .f32⟩) main_call0_cst) (TRef.of (T := ⟨S2x2038x10, .f32⟩) main_call0_v14) (broadcastInDim S2x2038x10 ![] bcast_S_S2x2038x10),
    TRef.ternary (TRef.of (T := ⟨S2x2038x10, .i1⟩) main_call0_v12) (TRef.of (T := ⟨S2x2038x10, .f32⟩) main_call0_v13) (TRef.of (T := ⟨S2x2038x10, .f32⟩) main_call0_v14) (TRef.of (T := ⟨S2x2038x10, .f32⟩) main_v26) select ]

/-- Every pair of slots of a window compared, and a 10 × 10 matrix of trues. -/
abbrev opsEq : List (HloOp τ sig (Elt F)) :=
  [ unary main_v25 main_v27 (broadcastInDim S2x2038x10x1 ![0, 1, 2] bcast_S2x2038x10_S2x2038x10x1_0_1_2 : (⟨S2x2038x10, .i32⟩ : BufTy).Contents (Elt F) → (⟨S2x2038x10x1, .i32⟩ : BufTy).Contents (Elt F)),
    unary main_v25 main_v28 (broadcastInDim S2x2038x1x10 ![0, 1, 3] bcast_S2x2038x10_S2x2038x1x10_0_1_3 : (⟨S2x2038x10, .i32⟩ : BufTy).Contents (Elt F) → (⟨S2x2038x1x10, .i32⟩ : BufTy).Contents (Elt F)),
    unary main_v27 main_v29 (broadcastInDim S2x2038x10x10 ![0, 1, 2, 3] bcast_S2x2038x10x1_S2x2038x10x10_0_1_2_3 : (⟨S2x2038x10x1, .i32⟩ : BufTy).Contents (Elt F) → (⟨S2x2038x10x10, .i32⟩ : BufTy).Contents (Elt F)),
    unary main_v28 main_v30 (broadcastInDim S2x2038x10x10 ![0, 1, 2, 3] bcast_S2x2038x1x10_S2x2038x10x10_0_1_2_3 : (⟨S2x2038x1x10, .i32⟩ : BufTy).Contents (Elt F) → (⟨S2x2038x10x10, .i32⟩ : BufTy).Contents (Elt F)),
    binary main_v29 main_v30 main_v31 (cmpi .eq : (⟨S2x2038x10x10, .i32⟩ : BufTy).Contents (Elt F) → (⟨S2x2038x10x10, .i32⟩ : BufTy).Contents (Elt F) → (⟨S2x2038x10x10, .i1⟩ : BufTy).Contents (Elt F)),
    nullary main_c_3 (constantI S_ 1 1#1),
    unary main_c_3 main_v32 (broadcastInDim S10x10 ![] bcast_S_S10x10 : (⟨S_, .i1⟩ : BufTy).Contents (Elt F) → (⟨S10x10, .i1⟩ : BufTy).Contents (Elt F)) ]

/-- The strictly lower triangle of the all-true 10 × 10 matrix (jax's outlined function, in place, over plain buffers). -/
abbrev opsTril : List (HloOp τ sig (Elt F)) :=
  [ nullary main_call1_v0 (iotaInDim S10x10 32 0),
    nullary main_call1_c (constantI S_ 32 4294967295#32),
    unary main_call1_c main_call1_v1 (broadcastInDim S10x10 ![] bcast_S_S10x10 : (⟨S_, .i32⟩ : BufTy).Contents (Elt F) → (⟨S10x10, .i32⟩ : BufTy).Contents (Elt F)),
    binary main_call1_v0 main_call1_v1 main_call1_v2 (addi : (⟨S10x10, .i32⟩ : BufTy).Contents (Elt F) → (⟨S10x10, .i32⟩ : BufTy).Contents (Elt F) → (⟨S10x10, .i32⟩ : BufTy).Contents (Elt F)),
    nullary main_call1_v3 (iotaInDim S10x10 32 1),
    binary main_call1_v2 main_call1_v3 main_call1_v4 (cmpi .sge : (⟨S10x10, .i32⟩ : BufTy).Contents (Elt F) → (⟨S10x10, .i32⟩ : BufTy).Contents (Elt F) → (⟨S10x10, .i1⟩ : BufTy).Contents (Elt F)),
    nullary main_call1_c_0 (constantI S_ 1 0#1),
    unary main_call1_c_0 main_call1_v5 (broadcastInDim S10x10 ![] bcast_S_S10x10 : (⟨S_, .i1⟩ : BufTy).Contents (Elt F) → (⟨S10x10, .i1⟩ : BufTy).Contents (Elt F)),
    ternary main_call1_v4 main_v32 main_call1_v5 main_v33 (select : (⟨S10x10, .i1⟩ : BufTy).Contents (Elt F) → (⟨S10x10, .i1⟩ : BufTy).Contents (Elt F) → (⟨S10x10, .i1⟩ : BufTy).Contents (Elt F) → (⟨S10x10, .i1⟩ : BufTy).Contents (Elt F)) ]

/-- The first-occurrence mask of each window, as floats. -/
abbrev opsMask : List (HloOp τ sig (Elt F)) :=
  [ unary main_v33 main_v34 (broadcastInDim S1x1x10x10 ![2, 3] bcast_S10x10_S1x1x10x10_2_3 : (⟨S10x10, .i1⟩ : BufTy).Contents (Elt F) → (⟨S1x1x10x10, .i1⟩ : BufTy).Contents (Elt F)),
    unary main_v34 main_v35 (broadcastInDim S2x2038x10x10 ![0, 1, 2, 3] bcast_S1x1x10x10_S2x2038x10x10_0_1_2_3 : (⟨S1x1x10x10, .i1⟩ : BufTy).Contents (Elt F) → (⟨S2x2038x10x10, .i1⟩ : BufTy).Contents (Elt F)),
    binary main_v31 main_v35 main_v36 (andi : (⟨S2x2038x10x10, .i1⟩ : BufTy).Contents (Elt F) → (⟨S2x2038x10x10, .i1⟩ : BufTy).Contents (Elt F) → (⟨S2x2038x10x10, .i1⟩ : BufTy).Contents (Elt F)),
    nullary main_c_4 (constantI S_ 1 0#1),
    binary main_v36 main_c_4 main_v37 ((fun x v => Host.reduce IntOp.ori x v reducesTo_S2x2038x10x10_S2x2038x10_d3 h_S_) : (⟨S2x2038x10x10, .i1⟩ : BufTy).Contents (Elt F) → (⟨S_, .i1⟩ : BufTy).Contents (Elt F) → (⟨S2x2038x10, .i1⟩ : BufTy).Contents (Elt F)),
    unary main_v37 main_v38 (noti : (⟨S2x2038x10, .i1⟩ : BufTy).Contents (Elt F) → (⟨S2x2038x10, .i1⟩ : BufTy).Contents (Elt F)),
    unary main_v38 main_v39 (uitofp .f32 : (⟨S2x2038x10, .i1⟩ : BufTy).Contents (Elt F) → (⟨S2x2038x10, .f32⟩ : BufTy).Contents (Elt F)) ]

/-- The masked sum, times 0.2, over 4076. -/
abbrev opsFinish : List (HloOp τ sig (Elt F)) :=
  [ binary main_v26 main_v39 main_v40 (mulf : (⟨S2x2038x10, .f32⟩ : BufTy).Contents (Elt F) → (⟨S2x2038x10, .f32⟩ : BufTy).Contents (Elt F) → (⟨S2x2038x10, .f32⟩ : BufTy).Contents (Elt F)),
    nullary main_cst_5 (constant S_ .f32 0x00000000#32),
    binary main_v40 main_cst_5 main_v41 ((fun x v => Host.reduceAdd x v reducesTo_S2x2038x10_S_d0_1_2 h_S_) : (⟨S2x2038x10, .f32⟩ : BufTy).Contents (Elt F) → (⟨S_, .f32⟩ : BufTy).Contents (Elt F) → (⟨S_, .f32⟩ : BufTy).Contents (Elt F)),
    nullary main_cst_6 (constant S_ .f32 0x3E4CCCCD#32),
    binary main_cst_6 main_v41 main_v42 (mulf : (⟨S_, .f32⟩ : BufTy).Contents (Elt F) → (⟨S_, .f32⟩ : BufTy).Contents (Elt F) → (⟨S_, .f32⟩ : BufTy).Contents (Elt F)),
    nullary main_cst_7 (constant S_ .f32 0x457EC000#32),
    binary main_v42 main_cst_7 main_v43 (Host.divf : (⟨S_, .f32⟩ : BufTy).Contents (Elt F) → (⟨S_, .f32⟩ : BufTy).Contents (Elt F) → (⟨S_, .f32⟩ : BufTy).Contents (Elt F)) ]

set_option maxRecDepth 8192 in
/-- The operation list is the seven stretches in order (the outlined triangle's operations written over their plain
    buffers: a typed reference's transport of contents is the identity). -/
theorem ops_split : (ValueP.ops : List (HloOp τ sig (Elt F)))
    = opsSoftmax ++ (opsWindows ++ (opsTake ++ (opsEq ++ (opsTril ++ (opsMask ++ opsFinish))))) := rfl

variable (V : Valuation τ sig (Elt F))

/-! ## Each stretch as a function of what it reads -/

theorem softmax_probs : after opsSoftmax V (Proc.devRef .tc main_v11)
    = Cert.Spec.probs (Cert.Spec.tailRows (V (Proc.devRef .tc main_arg0))) := by
  after_results <;> rfl

theorem softmax_keeps_ids : after opsSoftmax V (Proc.devRef .tc main_arg1) = V (Proc.devRef .tc main_arg1) := by
  after_results

theorem windows_tokens : after opsWindows V (Proc.devRef .tc main_v25)
    = Cert.Spec.windows (V (Proc.devRef .tc main_arg1)) := by
  after_results <;> rfl

theorem windows_keeps_probs : after opsWindows V (Proc.devRef .tc main_v11) = V (Proc.devRef .tc main_v11) := by
  after_results

set_option maxHeartbeats 1000000 in
theorem take_gathered : after opsTake V (Proc.devRef .tc main_v26)
    = Cert.Spec.takeAlong (V (Proc.devRef .tc main_v11)) (V (Proc.devRef .tc main_v25)) := by
  after_results_simp
  simp only [TRef.ofBuf, TRef.toBuf, cast_eq]
  rfl

theorem take_keeps_windows : after opsTake V (Proc.devRef .tc main_v25) = V (Proc.devRef .tc main_v25) := by
  after_results

theorem eq_pairs : after opsEq V (Proc.devRef .tc main_v31)
    = cmpi .eq
        (broadcastInDim S2x2038x10x10 ![0, 1, 2, 3] bcast_S2x2038x10x1_S2x2038x10x10_0_1_2_3 (broadcastInDim S2x2038x10x1 ![0, 1, 2] bcast_S2x2038x10_S2x2038x10x1_0_1_2 (V (Proc.devRef .tc main_v25))))
        (broadcastInDim S2x2038x10x10 ![0, 1, 2, 3] bcast_S2x2038x1x10_S2x2038x10x10_0_1_2_3 (broadcastInDim S2x2038x1x10 ![0, 1, 3] bcast_S2x2038x10_S2x2038x1x10_0_1_3 (V (Proc.devRef .tc main_v25)))) := by
  after_results <;> rfl

theorem eq_ones : after opsEq V (Proc.devRef .tc main_v32) = broadcastInDim S10x10 ![] bcast_S_S10x10 (constantI S_ 1 1#1) := by
  after_results <;> rfl

theorem eq_keeps_gathered : after opsEq V (Proc.devRef .tc main_v26) = V (Proc.devRef .tc main_v26) := by
  after_results

theorem tril_lower : after opsTril V (Proc.devRef .tc main_v33)
    = select (cmpi .sge (addi (iotaInDim S10x10 32 0) (broadcastInDim S10x10 ![] bcast_S_S10x10 (constantI S_ 32 4294967295#32))) (iotaInDim S10x10 32 1))
        (V (Proc.devRef .tc main_v32)) (broadcastInDim S10x10 ![] bcast_S_S10x10 (constantI S_ 1 0#1)) := by
  after_results <;> rfl

theorem tril_keeps_pairs : after opsTril V (Proc.devRef .tc main_v31) = V (Proc.devRef .tc main_v31) := by
  after_results

theorem tril_keeps_gathered : after opsTril V (Proc.devRef .tc main_v26) = V (Proc.devRef .tc main_v26) := by
  after_results

theorem mask_float : after opsMask V (Proc.devRef .tc main_v39)
    = uitofp .f32 (noti (Host.reduce IntOp.ori
        (andi (V (Proc.devRef .tc main_v31))
          (broadcastInDim S2x2038x10x10 ![0, 1, 2, 3] bcast_S1x1x10x10_S2x2038x10x10_0_1_2_3 (broadcastInDim S1x1x10x10 ![2, 3] bcast_S10x10_S1x1x10x10_2_3 (V (Proc.devRef .tc main_v33)))))
        (constantI S_ 1 0#1) reducesTo_S2x2038x10x10_S2x2038x10_d3 h_S_)) := by
  after_results <;> rfl

theorem mask_keeps_gathered : after opsMask V (Proc.devRef .tc main_v26) = V (Proc.devRef .tc main_v26) := by
  after_results

theorem finish_result : after opsFinish V (Proc.devRef .tc main_v43)
    = Cert.Spec.finish (V (Proc.devRef .tc main_v26)) (V (Proc.devRef .tc main_v39)) := by
  after_results <;> rfl

/-! ## The whole list -/

/-- After the 83 operations the result buffer holds the specification's term of the two arguments' contents. -/
theorem result : after (ValueP.ops : List (HloOp τ sig (Elt F))) V (Proc.devRef .tc main_v43)
    = Cert.Spec.refTerm (V (Proc.devRef .tc main_arg0)) (V (Proc.devRef .tc main_arg1)) := by
  rw [ops_split, StableHlo.after_append, StableHlo.after_append, StableHlo.after_append, StableHlo.after_append,
    StableHlo.after_append, StableHlo.after_append,
    finish_result, mask_float, mask_keeps_gathered, tril_lower, tril_keeps_pairs, tril_keeps_gathered,
    eq_pairs, eq_ones, eq_keeps_gathered, take_gathered, take_keeps_windows, windows_tokens,
    windows_keeps_probs, softmax_probs, softmax_keeps_ids]
  rfl

end Cert.ReferenceIdeal.RefValue

end
-- ==== Proof.KernelTail.lean ====
/-
  The kernel program's host side after its pallas_call, as a function of the two arguments and of the two arrays the
  call leaves.  The 83 operations are read stretch by stretch, each as ONE function of the buffers it reads, over any
  contents of the buffers: the first cuts the row statistics to the penalised timesteps, builds the windows of tokens
  and cuts the logits; the second is `take_along_axis` of the raw logits; the third finishes the softmax on the
  gathered entries and compares every pair of slots of a window; the fourth is the strictly lower triangle; the last
  builds the first-occurrence mask, sums and scales.
-/
import proofs.«419532_j28759101014353_3_alg».proof.Proof.FrameKI
import proofs.«419532_j28759101014353_3_alg».proof.Proof.Spec

noncomputable section

namespace Cert.KernelIdeal.Tail

open Cert.KernelIdeal Cert.KernelIdeal.Gen Cert.KernelIdeal.Frm Idealize.ShloMosaic Idealize.ShloMosaic.TcCoe Idealize.SL.Sem
open Idealize.ShloMosaic.StableHlo
open Idealize.ShloMosaic.Pipeline (Dat)

variable {F : FTy → Type} [FloatOps F]

/-- The strictly lower triangle of the all-true 10 × 10 matrix (jax's outlined function, in place, over plain buffers). -/
abbrev trilOps : List (HloOp τ sig (Elt F)) :=
  [ nullary main_call1_v0 (iotaInDim S10x10 32 0),
    nullary main_call1_c (constantI S_ 32 4294967295#32),
    unary main_call1_c main_call1_v1 (broadcastInDim S10x10 ![] bcast_S_S10x10 : (⟨S_, .i32⟩ : BufTy).Contents (Elt F) → (⟨S10x10, .i32⟩ : BufTy).Contents (Elt F)),
    binary main_call1_v0 main_call1_v1 main_call1_v2 (addi : (⟨S10x10, .i32⟩ : BufTy).Contents (Elt F) → (⟨S10x10, .i32⟩ : BufTy).Contents (Elt F) → (⟨S10x10, .i32⟩ : BufTy).Contents (Elt F)),
    nullary main_call1_v3 (iotaInDim S10x10 32 1),
    binary main_call1_v2 main_call1_v3 main_call1_v4 (cmpi .sge : (⟨S10x10, .i32⟩ : BufTy).Contents (Elt F) → (⟨S10x10, .i32⟩ : BufTy).Contents (Elt F) → (⟨S10x10, .i1⟩ : BufTy).Contents (Elt F)),
    nullary main_call1_c_0 (constantI S_ 1 0#1),
    unary main_call1_c_0 main_call1_v5 (broadcastInDim S10x10 ![] bcast_S_S10x10 : (⟨S_, .i1⟩ : BufTy).Contents (Elt F) → (⟨S10x10, .i1⟩ : BufTy).Contents (Elt F)),
    ternary main_call1_v4 main_v36 main_call1_v5 main_v37 (select : (⟨S10x10, .i1⟩ : BufTy).Contents (Elt F) → (⟨S10x10, .i1⟩ : BufTy).Contents (Elt F) → (⟨S10x10, .i1⟩ : BufTy).Contents (Elt F) → (⟨S10x10, .i1⟩ : BufTy).Contents (Elt F)) ]

/-- The fourth stretch is those operations: a typed reference's transport of contents is the identity. -/
theorem tril_plain : (hostOps1_3 : List (HloOp τ sig (Elt F))) = trilOps := rfl

section Stretches

variable (V : Valuation τ sig (Elt F))

/-! ## The first stretch -/

set_option maxHeartbeats 1000000 in
theorem first_rowmax : after hostOps1 V (Proc.devRef .tc main_v4) = Cert.Spec.statRows (V (Proc.devRef .tc main_v1_0)) := by
  after_results_simp <;> rfl

set_option maxHeartbeats 1000000 in
theorem first_rowsum : after hostOps1 V (Proc.devRef .tc main_v5) = Cert.Spec.statRows (V (Proc.devRef .tc main_v1_1)) := by
  after_results_simp <;> rfl

set_option maxHeartbeats 1000000 in
theorem first_windows : after hostOps1 V (Proc.devRef .tc main_v19) = Cert.Spec.windows (V (Proc.devRef .tc main_arg1)) := by
  after_results_simp <;> rfl

set_option maxHeartbeats 1000000 in
theorem first_logits : after hostOps1 V (Proc.devRef .tc main_v20) = Cert.Spec.tailRows (V (Proc.devRef .tc main_arg0)) := by
  after_results_simp <;> rfl

/-! ## `take_along_axis` -/

set_option maxHeartbeats 1000000 in
theorem take_gathered : after hostOps1_1 V (Proc.devRef .tc main_v21)
    = Cert.Spec.takeAlong (V (Proc.devRef .tc main_v20)) (V (Proc.devRef .tc main_v19)) := by
  after_results_simp
  simp only [TRef.ofBuf, TRef.toBuf, cast_eq]
  rfl

theorem take_keeps_rowmax : after hostOps1_1 V (Proc.devRef .tc main_v4) = V (Proc.devRef .tc main_v4) := by
  after_results

theorem take_keeps_rowsum : after hostOps1_1 V (Proc.devRef .tc main_v5) = V (Proc.devRef .tc main_v5) := by
  after_results

theorem take_keeps_windows : after hostOps1_1 V (Proc.devRef .tc main_v19) = V (Proc.devRef .tc main_v19) := by
  after_results

/-! ## The softmax finished on the gathered entries; the pairs of slots -/

theorem third_gathered : after hostOps1_2 V (Proc.devRef .tc main_v30)
    = mulf (Host.exp (subf (V (Proc.devRef .tc main_v21)) (Cert.Spec.overSlots (V (Proc.devRef .tc main_v4)))))
        (Cert.Spec.overSlots (Host.divf (broadcastInDim S2x2038 ![] bcast_S_S2x2038 (constant S_ .f32 0x3F800000#32)) (V (Proc.devRef .tc main_v5)))) := by
  after_results <;> rfl

theorem third_pairs : after hostOps1_2 V (Proc.devRef .tc main_v35)
    = cmpi .eq
        (broadcastInDim S2x2038x10x10 ![0, 1, 2, 3] bcast_S2x2038x10x1_S2x2038x10x10_0_1_2_3 (broadcastInDim S2x2038x10x1 ![0, 1, 2] bcast_S2x2038x10_S2x2038x10x1_0_1_2 (V (Proc.devRef .tc main_v19))))
        (broadcastInDim S2x2038x10x10 ![0, 1, 2, 3] bcast_S2x2038x1x10_S2x2038x10x10_0_1_2_3 (broadcastInDim S2x2038x1x10 ![0, 1, 3] bcast_S2x2038x10_S2x2038x1x10_0_1_3 (V (Proc.devRef .tc main_v19)))) := by
  after_results <;> rfl

theorem third_ones : after hostOps1_2 V (Proc.devRef .tc main_v36) = broadcastInDim S10x10 ![] bcast_S_S10x10 (constantI S_ 1 1#1) := by
  after_results <;> rfl

/-! ## The strictly lower triangle -/

theorem tril_lower : after trilOps V (Proc.devRef .tc main_v37)
    = select (cmpi .sge (addi (iotaInDim S10x10 32 0) (broadcastInDim S10x10 ![] bcast_S_S10x10 (constantI S_ 32 4294967295#32))) (iotaInDim S10x10 32 1))
        (V (Proc.devRef .tc main_v36)) (broadcastInDim S10x10 ![] bcast_S_S10x10 (constantI S_ 1 0#1)) := by
  after_results <;> rfl

theorem tril_keeps_gathered : after trilOps V (Proc.devRef .tc main_v30) = V (Proc.devRef .tc main_v30) := by
  after_results

theorem tril_keeps_pairs : after trilOps V (Proc.devRef .tc main_v35) = V (Proc.devRef .tc main_v35) := by
  after_results

/-! ## The mask, the sum, the scaling -/

theorem last_result : after hostOps1_4 V (Proc.devRef .tc main_v47)
    = Cert.Spec.finish (V (Proc.devRef .tc main_v30))
        (uitofp .f32 (noti (Host.reduce IntOp.ori
        (andi (V (Proc.devRef .tc main_v35))
          (broadcastInDim S2x2038x10x10 ![0, 1, 2, 3] bcast_S1x1x10x10_S2x2038x10x10_0_1_2_3 (broadcastInDim S1x1x10x10 ![2, 3] bcast_S10x10_S1x1x10x10_2_3 (V (Proc.devRef .tc main_v37)))))
        (constantI S_ 1 0#1) reducesTo_S2x2038x10x10_S2x2038x10_d3 h_S_))) := by
  after_results <;> rfl

end Stretches

/-! ## The whole tail -/

variable (m : (ℓ : Loc nD τ sig) → Buf (Elt F) ℓ)

/-- After the lines that follow the region the result buffer holds the specification's term of the two arguments
    as launched and of the two arrays the region leaves. -/
theorem result (c : Dev nD) :
    Pipeline.afterTail₀ cfgs (dats m) 0 (V0 m) [hostOps1, hostOps1_1, hostOps1_2, hostOps1_3, hostOps1_4] c main_v47
      = Cert.Spec.kerTerm (m ((c : Thread nD τ).loc main_arg0)) (m ((c : Thread nD τ).loc main_arg1))
          ((dats m 0 c).arrAt 1 cfg0.N) ((dats m 0 c).arrAt 2 cfg0.N) := by
  unfold Pipeline.afterTail₀
  simp only [List.flatten_cons, List.flatten_nil, List.append_nil]
  rw [StableHlo.after_append, StableHlo.after_append, StableHlo.after_append, StableHlo.after_append,
    last_result, tril_plain, tril_lower, tril_keeps_gathered, tril_keeps_pairs, third_gathered, third_pairs, third_ones,
    take_gathered, take_keeps_rowmax, take_keeps_rowsum, take_keeps_windows,
    first_rowmax, first_rowsum, first_windows, first_logits]
  rw [Pipeline.withArrays_arr spec0 launch0.win.arr_inj c _ _ 1, Pipeline.withArrays_arr spec0 launch0.win.arr_inj c _ _ 2,
    Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1))]
  rw [show V0 m c (Proc.devRef .tc main_arg0) = m ((c : Thread nD τ).loc main_arg0) from V_main_arg0 m c,
    show V0 m c (Proc.devRef .tc main_arg1) = m ((c : Thread nD τ).loc main_arg1) from V_main_arg1 m c]
  rfl

end Cert.KernelIdeal.Tail

end
-- ==== Proof.KernelValue.lean ====
/-
  What the pallas_call leaves in its two output arrays, at the ideal instance: row r of the first holds the maximum
  of row r of the re-laid logits, row r of the second the sum over that row of `exp (entry - maximum)`.  Grid point
  p computes rows 64 p … 64 p + 63 from its [64, 32000] block and writes them back as a [64, 1] block.
-/
import proofs.«419532_j28759101014353_3_alg».proof.Proof.FrameKI
import proofs.«419532_j28759101014353_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen Cert.KernelIdeal.Frm Idealize.ShloMosaic Idealize.ShloMosaic.TcCoe Idealize.SL.Sem
open Idealize.ShloMosaic.ValueIdx
open Idealize.ShloMosaic.Pipeline (Dat)
open Idealize.ShloMosaic.StableHlo

variable (m : (ℓ : Loc nD τ sig) → Buf (Elt Ideal) ℓ)

/-- The region finds the logits re-laid as 4096 rows (the one host operation before it is that reshape). -/
theorem entry_rows (c : Dev nD) :
    (V m c main_v0 : FVec Ideal S4096x32000 .f32) = Cert.Spec.flatRows (F := Ideal) (m ((c : Thread nD τ).loc main_arg0)) := by
  dsimp only [V, V0]
  simp only [hostOps0, List.flatten_cons, List.flatten_nil, List.append_nil]
  after_results
  rfl

/-! ## The body's two payloads, row by row -/

/-- A vector of length a viewed as a column [a, 1] reads, at row i, its entry i. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (i, c), the column's entry i. -/
theorem broadcastTo_col_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The word the maximum is folded from is -∞. -/
theorem ofBits_neg_inf : Ideal.ofBits .f32 0xFF800000#32 = (⊥ : EReal) := by simp [Ideal.ofBits, Ideal.ieee]

/-- Reducing a [64, 32000] block along its second axis, the index of row r with column k put back is (r, k). -/
theorem lift_row (r : Fin 64) (k : Fin 32000) : reduces_S64x32000_S64.lift (ix1 r) k = ix2 r k :=
  funext fun a => by match a with | ⟨0, _⟩ => rfl | ⟨1, _⟩ => rfl

/-- The body's first value is the loaded block itself: a shape cast to the same shape. -/
theorem pay1_eq (x0 : FVec Ideal S64x32000 .f32) : k0_pay1 (F := Ideal) x0 = x0 := shapeCast_self x0 _

/-- Row r of the first payload: the maximum of row r of the block. -/
theorem pay2_apply (x0 : FVec Ideal S64x32000 .f32) (r : Fin 64) (u : Fin 1) :
    k0_pay2 (F := Ideal) x0 (ix2 r u) = Cert.Spec.foldMax fun k : Fin 32000 => x0 (ix2 r k) := by
  unfold k0_pay2 k0_pay1
  dsimp only
  refine (shapeCast_col_apply _ _ r u).trans ?_
  refine (Ideal.multiReduction_maximumf_single _ _ _ _ _ (ix1 r)).trans ?_
  unfold Cert.Spec.foldMax
  refine congrArg₂ (fun b f => (Finset.univ : Finset (Fin 32000)).fold max b f) ofBits_neg_inf (funext fun k => ?_)
  show shapeCast S64x32000 x0 shapeCasts_S64x32000_S64x32000 (reduces_S64x32000_S64.lift (ix1 r) k) = x0 (ix2 r k)
  rw [shapeCast_self]
  exact congrArg x0 (lift_row r k)

/-- Row r of the second payload: the sum over row r of exp (entry - row maximum). -/
theorem pay3_apply (x0 : FVec Ideal S64x32000 .f32) (r : Fin 64) (u : Fin 1) :
    k0_pay3 (F := Ideal) x0 (ix2 r u) = Cert.Spec.expSum fun k : Fin 32000 => x0 (ix2 r k) := by
  unfold k0_pay3
  dsimp only
  refine (shapeCast_col_apply _ _ r u).trans ?_
  refine (Ideal.multiReduction_add_single _ _ _ _ _ (ix1 r)).trans ?_
  unfold Cert.Spec.expSum
  refine Finset.sum_congr rfl fun (k : Fin 32000) _ => ?_
  -- the summand at any index of the block that is (r, k)
  have key : ∀ i : S64x32000.Idx, i = ix2 r k →
      Ideal.exp (k0_pay1 (F := Ideal) x0 i - broadcastTo S64x32000 (k0_pay2 (F := Ideal) x0) broadcasts_S64x1_S64x32000 i)
        = Ideal.exp (x0 (ix2 r k) - Cert.Spec.foldMax fun k : Fin 32000 => x0 (ix2 r k)) := by
    rintro _ rfl
    rw [pay1_eq, (broadcastTo_col_apply _ _ r k).trans (pay2_apply x0 r 0)]
  exact key _ (lift_row r k)

/-! ## From the blocks to the arrays -/

theorem hz : (![0, 0] : Fin 2 → Nat) = fun _ => 0 := funext fun a => by match a with | ⟨0, _⟩ => rfl | ⟨1, _⟩ => rfl

/-- At grid point t each of the three windows is on block t along the rows and block 0 along the columns. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry x of the input block at point t is the entry of the re-laid logits 64 t rows further down. -/
theorem iblk_apply (c : Dev nD) (t : Fin cfg0.N) (x : S64x32000.Idx) (i : S4096x32000.Idx)
    (h0 : (i 0).val = 64 * t.val + (x 0).val) (h1 : (i 1).val = (x 1).val) :
    (iblk m c 0 t : FVec Ideal S64x32000 .f32) x = (V m c main_v0 : FVec Ideal S4096x32000 .f32) i := by
  obtain ⟨e0, e1, -⟩ := block_index t
  unfold iblk
  rw [View.read_apply]
  show V m c main_v0 (((cfg0.win 0).blk t).view.emb x) = V m c main_v0 i
  refine congrArg _ (funext fun a => Fin.ext ?_)
  match a with
  | ⟨0, _⟩ => show win0_0.index t (0 : Fin 2) * 64 + 1 * (x 0).val = (i 0).val; omega
  | ⟨1, _⟩ => show win0_0.index t (1 : Fin 2) * 32000 + 1 * (x 1).val = (i 1).val; omega

/-- If the block x0 is rows 64 p … 64 p + 63 of X, then at row r each payload is the statistic of row 64 p + r of X. -/
theorem rowmax_block (X : FVec Ideal S4096x32000 .f32) (x0 : FVec Ideal S64x32000 .f32) (p : ℕ)
    (hx : ∀ (x : S64x32000.Idx) (i : S4096x32000.Idx), (i 0).val = 64 * p + (x 0).val → (i 1).val = (x 1).val → x0 x = X i)
    (j : S64x1.Idx) (i : S4096x1.Idx) (hi : (i 0).val = 64 * p + (j 0).val) :
    k0_pay2 (F := Ideal) x0 j = Cert.Spec.rowMaxArr X i := by
  obtain ⟨r, u, rfl⟩ : ∃ (r : Fin 64) (u : Fin 1), j = ix2 r u := ⟨j 0, j 1, eq_ix2 j⟩
  rw [pay2_apply]
  unfold Cert.Spec.rowMaxArr
  exact congrArg Cert.Spec.foldMax (funext fun k => hx (ix2 r k) (ix2 (i 0) k) hi rfl)
theorem rowsum_block (X : FVec Ideal S4096x32000 .f32) (x0 : FVec Ideal S64x32000 .f32) (p : ℕ)
    (hx : ∀ (x : S64x32000.Idx) (i : S4096x32000.Idx), (i 0).val = 64 * p + (x 0).val → (i 1).val = (x 1).val → x0 x = X i)
    (j : S64x1.Idx) (i : S4096x1.Idx) (hi : (i 0).val = 64 * p + (j 0).val) :
    k0_pay3 (F := Ideal) x0 j = Cert.Spec.rowSumArr X i := by
  obtain ⟨r, u, rfl⟩ : ∃ (r : Fin 64) (u : Fin 1), j = ix2 r u := ⟨j 0, j 1, eq_ix2 j⟩
  rw [pay3_apply]
  unfold Cert.Spec.rowSumArr
  exact congrArg Cert.Spec.expSum (funext fun k => hx (ix2 r k) (ix2 (i 0) k) hi rfl)

/-- An array read through the view of a window's block, at the block's index j, is the array at j's place in it. -/
theorem read_blk1 (t : Fin cfg0.N) (G : FVec Ideal Cert.Spec.S4096x1 .f32) (j : ((cfg0.win 1).xblock (grid0.coords t)).Idx) :
    ((cfg0.win 1).blk t).view.read (Elt Ideal) G j = G (((cfg0.win 1).blk t).view.emb j) := rfl
theorem read_blk2 (t : Fin cfg0.N) (G : FVec Ideal Cert.Spec.S4096x1 .f32) (j : ((cfg0.win 2).xblock (grid0.coords t)).Idx) :
    ((cfg0.win 2).blk t).view.read (Elt Ideal) G j = G (((cfg0.win 2).blk t).view.emb j) := rfl

/-- What point t writes back into the first output array is block t of the row maxima of the re-laid logits. -/
theorem flushed1_eq (c : Dev nD) (t : Fin cfg0.N) :
    (dats m 0 c).flushed 1 t = ((cfg0.win 1).blk t).view.read (Elt Ideal) (Cert.Spec.rowMaxArr (V m c main_v0)) := by
  show (cfg0.win 1).cut (grid0.coords t) ((dats m 0 c).after 1 t) = _
  rw [after0_1]
  unfold out0_1
  rw [View.canon_unit_zero hz]
  simp only [View.ld_unit_zero (S := S64x32000) hz]
  funext j
  refine (rowmax_block (V m c main_v0) (iblk m c 0 t) t.val (fun x i h0 h1 => iblk_apply m c t x i h0 h1)
    ((win0 1).xinj (grid0.coords t) j) (((cfg0.win 1).blk t).view.emb j) ?_).trans
    (read_blk1 t (Cert.Spec.rowMaxArr (V m c main_v0)) j).symm
  obtain ⟨-, -, e, -⟩ := block_index t
  show win0_1.index t (0 : Fin 2) * 64 + 1 * (j 0).val = 64 * t.val + (j 0).val
  omega
/-- And into the second, block t of the row sums of exponentials. -/
theorem flushed2_eq (c : Dev nD) (t : Fin cfg0.N) :
    (dats m 0 c).flushed 2 t = ((cfg0.win 2).blk t).view.read (Elt Ideal) (Cert.Spec.rowSumArr (V m c main_v0)) := by
  show (cfg0.win 2).cut (grid0.coords t) ((dats m 0 c).after 2 t) = _
  rw [after0_2]
  unfold out0_2
  rw [View.canon_unit_zero hz]
  simp only [View.ld_unit_zero (S := S64x32000) hz]
  funext j
  refine (rowsum_block (V m c main_v0) (iblk m c 0 t) t.val (fun x i h0 h1 => iblk_apply m c t x i h0 h1)
    ((win0 2).xinj (grid0.coords t) j) (((cfg0.win 2).blk t).view.emb j) ?_).trans
    (read_blk2 t (Cert.Spec.rowSumArr (V m c main_v0)) j).symm
  obtain ⟨-, -, -, -, e, -⟩ := block_index t
  show win0_2.index t (0 : Fin 2) * 64 + 1 * (j 0).val = 64 * t.val + (j 0).val
  omega

/-- An index of a [4096, 1] output array is in point t's block iff each coordinate is in the block's range. -/
theorem mem_blk1 (t : Fin cfg0.N) (i : S4096x1.Idx) :
    i ∈ ((cfg0.win 1).blk t).view.set
      ↔ ∀ a : Fin 2, win0_1.index t a * S64x1.size a ≤ (i a).val ∧ (i a).val < win0_1.index t a * S64x1.size a + S64x1.size a := by
  show i ∈ ((View.whole main_v1_0).slice (win0_1.rect t)).set ↔ _
  rw [View.set_slice_whole, Rect.mem_set_unit]
  exact Iff.rfl
theorem mem_blk2 (t : Fin cfg0.N) (i : S4096x1.Idx) :
    i ∈ ((cfg0.win 2).blk t).view.set
      ↔ ∀ a : Fin 2, win0_2.index t a * S64x1.size a ≤ (i a).val ∧ (i a).val < win0_2.index t a * S64x1.size a + S64x1.size a := by
  show i ∈ ((View.whole main_v1_1).slice (win0_2.rect t)).set ↔ _
  rw [View.set_slice_whole, Rect.mem_set_unit]
  exact Iff.rfl

/-- Row i of a [4096, 1] output array lies in the block of point i / 64, and every point writes its block back. -/
theorem covered1 (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  have ht : (i 0).val / 64 < cfg0.N := by rw [show cfg0.N = 64 from N_0]; omega
  obtain ⟨t, htv⟩ : ∃ t : Fin cfg0.N, t.val = (i 0).val / 64 := ⟨⟨(i 0).val / 64, ht⟩, rfl⟩
  obtain ⟨-, -, e0, e1, -⟩ := block_index t
  refine ⟨t, flush0_1 t, ?_⟩
  rw [mem_blk1]
  intro a
  match a with
  | ⟨0, _⟩ => show win0_1.index t (0 : Fin 2) * 64 ≤ (i 0).val ∧ (i 0).val < win0_1.index t (0 : Fin 2) * 64 + 64; omega
  | ⟨1, _⟩ => show win0_1.index t (1 : Fin 2) * 1 ≤ (i 1).val ∧ (i 1).val < win0_1.index t (1 : Fin 2) * 1 + 1; omega
theorem covered2 (i : S4096x1.Idx) : ∃ t : Fin cfg0.N, (cfg0.win 2).flush t = true ∧ i ∈ ((cfg0.win 2).blk t).view.set := by
  have hi0 : (i 0).val < 4096 := (i 0).isLt
  have hi1 : (i 1).val < 1 := (i 1).isLt
  have ht : (i 0).val / 64 < cfg0.N := by rw [show cfg0.N = 64 from N_0]; omega
  obtain ⟨t, htv⟩ : ∃ t : Fin cfg0.N, t.val = (i 0).val / 64 := ⟨⟨(i 0).val / 64, ht⟩, rfl⟩
  obtain ⟨-, -, -, -, e0, e1⟩ := block_index t
  refine ⟨t, flush0_2 t, ?_⟩
  rw [mem_blk2]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 1 ≤ (i 1).val ∧ (i 1).val < win0_2.index t (1 : Fin 2) * 1 + 1; omega

/-- The first output array after the region: the row maxima. -/
theorem rowmax_final (c : Dev nD) :
    ((dats m 0 c).arrAt 1 cfg0.N : FVec Ideal S4096x1 .f32)
      = Cert.Spec.rowMaxArr (Cert.Spec.flatRows (m ((c : Thread nD τ).loc main_arg0))) := by
  rw [← entry_rows m c]
  exact (dats m 0 c).arrAt_eq_of_cover 1 (Cert.Spec.rowMaxArr (V m c main_v0)) (fun t _ => flushed1_eq m c t) (fun i => covered1 i)

/-- The second output array after the region: the row sums of exponentials. -/
theorem rowsum_final (c : Dev nD) :
    ((dats m 0 c).arrAt 2 cfg0.N : FVec Ideal S4096x1 .f32)
      = Cert.Spec.rowSumArr (Cert.Spec.flatRows (m ((c : Thread nD τ).loc main_arg0))) := by
  rw [← entry_rows m c]
  exact (dats m 0 c).arrAt_eq_of_cover 2 (Cert.Spec.rowSumArr (V m c main_v0)) (fun t _ => flushed2_eq m c t) (fun i => covered2 i)

end Cert.KernelIdeal.KValue

end
-- ==== Proof.Rows.lean ====
/-
  Rows of the logits: the analysis on the extended reals that joins the two programs, and the two programs' per-row
  statistics read at a batch b and a penalised timestep t as functions of the one row `x[b, t + 10, ·]`.
-/
import proofs.«419532_j28759101014353_3_alg».proof.Proof.Spec
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Cert.Rows

open Cert.Spec Idealize.ShloMosaic Idealize.ShloMosaic.ValueIdx
open scoped BigOperators

/-! ## The analysis -/

/-- On a non-empty row the fold of `max` from -∞ is attained at some entry: an entry that bounds all the others
    bounds the fold, and the fold bounds every entry. -/
theorem foldMax_attained {n : Nat} (hn : 0 < n) (f : Fin n → EReal) : ∃ k, foldMax f = f k := by
  haveI : Nonempty (Fin n) := ⟨⟨0, hn⟩⟩
  obtain ⟨k, -, hk⟩ := Finset.exists_max_image (Finset.univ : Finset (Fin n)) f Finset.univ_nonempty
  refine ⟨k, le_antisymm ?_ ?_⟩
  · exact (Finset.fold_max_le _).mpr ⟨bot_le, hk⟩
  · exact (Finset.le_fold_max _).mpr (Or.inr ⟨k, Finset.mem_univ k, le_rfl⟩)

/-- The maximum of a non-empty row of finite entries is finite. -/
theorem foldMax_finite {n : Nat} (hn : 0 < n) (f : Fin n → EReal) (hf : ∀ k, f k ≠ ⊤ ∧ f k ≠ ⊥) :
    foldMax f ≠ ⊤ ∧ foldMax f ≠ ⊥ := by
  obtain ⟨k, hk⟩ := foldMax_attained hn f
  rw [hk]
  exact hf k

/-- The exponential of an extended real is non-negative: 0 at -∞, +∞ at +∞, a positive real in between. -/
theorem idealExp_nonneg (y : EReal) : 0 ≤ Ideal.exp y := by
  induction y using EReal.rec with
  | bot => exact le_refl (0 : EReal)
  | coe r => exact EReal.coe_nonneg.mpr (Real.exp_pos r).le
  | top => exact le_top

/-- A finite extended real minus itself is zero. -/
theorem ereal_sub_self (a : EReal) (h1 : a ≠ ⊤) (h2 : a ≠ ⊥) : a - a = 0 := by
  induction a using EReal.rec with
  | bot => exact absurd rfl h2
  | coe r => rw [← EReal.coe_sub, sub_self, EReal.coe_zero]
  | top => exact absurd rfl h1

/-- `exp 0 = 1`. -/
theorem idealExp_zero : Ideal.exp 0 = 1 := by
  show ((Real.exp 0 : ℝ) : EReal) = 1
  rw [Real.exp_zero, EReal.coe_one]

/-- The sum of `exp (f k - max f)` over a non-empty row of finite entries is not zero: every term is non-negative and
    the term at an entry that attains the maximum is `exp 0 = 1`. -/
theorem expSum_ne_zero {n : Nat} (hn : 0 < n) (f : Fin n → EReal) (hf : ∀ k, f k ≠ ⊤ ∧ f k ≠ ⊥) : expSum f ≠ 0 := by
  obtain ⟨k, hk⟩ := foldMax_attained hn f
  have hterm : Ideal.exp (f k - foldMax f) = 1 := by
    rw [hk, ereal_sub_self (f k) (hf k).1 (hf k).2, idealExp_zero]
  have hle : Ideal.exp (f k - foldMax f) ≤ expSum f :=
    Finset.single_le_sum (f := fun i : Fin n => Ideal.exp (f i - foldMax f)) (fun i _ => idealExp_nonneg _)
      (Finset.mem_univ k)
  rw [hterm] at hle
  intro h0
  rw [h0] at hle
  exact absurd hle (not_le.mpr zero_lt_one)

/-- Off zero, multiplying by the reciprocal is dividing. -/
theorem mul_div_one (a S : EReal) (hS : S ≠ 0) : a * Ideal.div 1 S = Ideal.div a S := by
  unfold Ideal.div
  rw [if_neg hS, if_neg hS, one_mul]

/-! ## Layout operations at an index -/

theorem tailRows_apply (x : FVec Ideal S2x2048x32000 .f32) (b : Fin 2) (t : Fin 2038) (k : Fin 32000) :
    tailRows x (ix3 b t k) = logitRow x b t k := by
  unfold tailRows logitRow
  exact slice3_axis1_apply 10 x slices_S2x2048x32000_S2x2038x32000_0_10_0 b t k ⟨t.val + 10, by omega⟩
    (Nat.add_comm t.val 10)

theorem overSlots_apply (s : FVec Ideal S2x2038 .f32) (b : Fin 2) (t : Fin 2038) (j : Fin 10) :
    overSlots s (ix3 b t j) = s (ix2 b t) := by
  unfold overSlots
  refine (broadcastInDim_apply _ bcast_S2x2038x1_S2x2038x10_0_1_2 _ (ix3 b t j) (ix3 b t (0 : Fin 1)) ?_).trans ?_
  · intro a
    match a with
    | ⟨0, _⟩ => rfl
    | ⟨1, _⟩ => rfl
    | ⟨2, _⟩ => rfl
  · refine broadcastInDim_apply _ bcast_S2x2038_S2x2038x1_0_1 s (ix3 b t (0 : Fin 1)) (ix2 b t) ?_
    intro a
    match a with
    | ⟨0, _⟩ => rfl
    | ⟨1, _⟩ => rfl

/-! ## The kernel's statistics at (b, t) -/

/-- A [4096, 1] column re-laid as [2, 2048] and cut to the timesteps from 10 on reads, at (b, t), the column's row
    `2048 · b + (t + 10)`: the slice moves t to t + 10 and the two layouts share the row-major position. -/
theorem statRows_apply (A : FVec Ideal S4096x1 .f32) (b : Fin 2) (t : Fin 2038) :
    statRows A (ix2 b t) = A (ix2 (⟨2048 * b.val + (t.val + 10), by omega⟩ : Fin 4096) (0 : Fin 1)) := by
  unfold statRows
  refine (slice2_axis1_apply 10 _ slices_S2x2048_S2x2038_0_10 b t (⟨t.val + 10, by omega⟩ : Fin 2048)
    (Nat.add_comm t.val 10)).trans ?_
  refine shapeCast_apply A shapeCasts_S4096x1_S2x2048 _ _ ?_
  rw [Shape.rowMajor_val_two, Shape.rowMajor_val_two]
  show (2048 * b.val + (t.val + 10)) * 1 + 0 = b.val * 2048 + (t.val + 10)
  omega

/-- Row `2048 · b + s` of the re-laid logits is `x[b, s, ·]`: the same row-major position in both layouts. -/
theorem flatRows_apply (x : FVec Ideal S2x2048x32000 .f32) (b : Fin 2) (s : Fin 2048) (k : Fin 32000) (r : Fin 4096)
    (hr : r.val = 2048 * b.val + s.val) : flatRows x (ix2 r k) = x (ix3 b s k) := by
  unfold flatRows
  refine shapeCast_apply x shapeCasts_S2x2048x32000_S4096x32000 _ _ ?_
  rw [Shape.rowMajor_val_three, Shape.rowMajor_val_two]
  show (b.val * 2048 + s.val) * 32000 + k.val = r.val * 32000 + k.val
  rw [hr]
  omega

theorem statRows_rowMax (x : FVec Ideal S2x2048x32000 .f32) (b : Fin 2) (t : Fin 2038) :
    statRows (rowMaxArr (flatRows x)) (ix2 b t) = foldMax (logitRow x b t) := by
  rw [statRows_apply]
  show foldMax (fun k : Fin 32000 => flatRows x (ix2 (⟨2048 * b.val + (t.val + 10), by omega⟩ : Fin 4096) k))
    = foldMax (logitRow x b t)
  refine congrArg foldMax (funext fun k => ?_)
  exact flatRows_apply x b ⟨t.val + 10, by omega⟩ k _ rfl

theorem statRows_rowSum (x : FVec Ideal S2x2048x32000 .f32) (b : Fin 2) (t : Fin 2038) :
    statRows (rowSumArr (flatRows x)) (ix2 b t) = expSum (logitRow x b t) := by
  rw [statRows_apply]
  show expSum (fun k : Fin 32000 => flatRows x (ix2 (⟨2048 * b.val + (t.val + 10), by omega⟩ : Fin 4096) k))
    = expSum (logitRow x b t)
  refine congrArg expSum (funext fun k => ?_)
  exact flatRows_apply x b ⟨t.val + 10, by omega⟩ k _ rfl

/-! ## The reference's softmax at (b, t, k) -/

/-- A per-row statistic spread over the vocabulary axis reads, at (b, t, k), its value at (b, t). -/
theorem overVocab_apply (s : FVec Ideal S2x2038 .f32) (b : Fin 2) (t : Fin 2038) (k : Fin 32000) :
    broadcastInDim S2x2038x32000 ![0, 1, 2] bcast_S2x2038x1_S2x2038x32000_0_1_2
      (broadcastInDim S2x2038x1 ![0, 1] bcast_S2x2038_S2x2038x1_0_1 s) (ix3 b t k) = s (ix2 b t) := by
  refine (broadcastInDim_apply _ bcast_S2x2038x1_S2x2038x32000_0_1_2 _ (ix3 b t k) (ix3 b t (0 : Fin 1)) ?_).trans ?_
  · intro a
    match a with
    | ⟨0, _⟩ => rfl
    | ⟨1, _⟩ => rfl
    | ⟨2, _⟩ => rfl
  · refine broadcastInDim_apply _ bcast_S2x2038_S2x2038x1_0_1 s (ix3 b t (0 : Fin 1)) (ix2 b t) ?_
    intro a
    match a with
    | ⟨0, _⟩ => rfl
    | ⟨1, _⟩ => rfl

/-- The reduction over the vocabulary axis, as the relation that names the index with a coordinate inserted. -/
theorem reduces_S2x2038x32000_S2x2038_d2 : S2x2038x32000.Reduces [2] S2x2038 := by decide

/-- The index (b, t) with k inserted on the vocabulary axis is (b, t, k). -/
theorem lift_ix2 (b : Fin 2) (t : Fin 2038) (k : Fin 32000) :
    reduces_S2x2038x32000_S2x2038_d2.lift (ix2 b t) k = ix3 b t k := by
  funext a
  match a with
  | ⟨0, _⟩ => rfl
  | ⟨1, _⟩ => rfl
  | ⟨2, _⟩ => rfl

/-- The f32 pattern of -∞ denotes the bottom of the extended reals. -/
theorem ofBits_negInf_f32 : Ideal.ofBits .f32 0xFF800000#32 = ⊥ := by simp [Ideal.ofBits, Ideal.ieee]

/-- The splat of -∞ reads -∞ at every index. -/
theorem negInf_bcast_apply (j : S2x2038.Idx) :
    broadcastInDim S2x2038 ![] bcast_S_S2x2038 (constant (F := Ideal) S_ .f32 0xFF800000#32) j = ⊥ :=
  ofBits_negInf_f32

/-- The reference's row maximum at (b, t): the fold of `max` from -∞ over the row `x[b, t + 10, ·]`; the maximum with
    -∞ in front changes nothing. -/
theorem refMax_apply (x : FVec Ideal S2x2048x32000 .f32) (b : Fin 2) (t : Fin 2038) :
    refMax (tailRows x) (ix2 b t) = foldMax (logitRow x b t) := by
  have hred : Host.reduce (FloatOps.maximumf (F := Ideal) (φ := .f32)) (tailRows x)
      (constant (F := Ideal) S_ .f32 0xFF800000#32) reducesTo_S2x2038x32000_S2x2038_d2 h_S_ (ix2 b t)
        = foldMax (logitRow x b t) := by
    refine (Host.reduce_eq_fold_single (FloatOps.maximumf (F := Ideal) (φ := .f32)) (tailRows x)
      (constant (F := Ideal) S_ .f32 0xFF800000#32) reducesTo_S2x2038x32000_S2x2038_d2
      reduces_S2x2038x32000_S2x2038_d2 h_S_ (ix2 b t)).trans ?_
    show (Finset.univ : Finset (Fin 32000)).fold max (Ideal.ofBits .f32 0xFF800000#32)
      (tailRows x ∘ reduces_S2x2038x32000_S2x2038_d2.lift (ix2 b t)) = foldMax (logitRow x b t)
    rw [ofBits_negInf_f32]
    unfold foldMax
    refine Finset.fold_congr fun (k : Fin 32000) _ => ?_
    exact (congrArg (tailRows x) (lift_ix2 b t k)).trans (tailRows_apply x b t k)
  unfold refMax
  rw [maximumf_apply, hred, negInf_bcast_apply]
  exact max_bot_left _

/-- `exp (y - max)` at (b, t, k), as a function of the row `x[b, t + 10, ·]`. -/
theorem refExp_apply (x : FVec Ideal S2x2048x32000 .f32) (b : Fin 2) (t : Fin 2038) (k : Fin 32000) :
    refExp (tailRows x) (ix3 b t k) = Ideal.exp (logitRow x b t k - foldMax (logitRow x b t)) := by
  unfold refExp
  show Ideal.exp (tailRows x (ix3 b t k)
    - broadcastInDim S2x2038x32000 ![0, 1, 2] bcast_S2x2038x1_S2x2038x32000_0_1_2
        (broadcastInDim S2x2038x1 ![0, 1] bcast_S2x2038_S2x2038x1_0_1 (refMax (tailRows x))) (ix3 b t k)) = _
  rw [overVocab_apply, refMax_apply, tailRows_apply]

/-- The reference's row sum at (b, t): the sum of `exp (x[b, t + 10, k] - max)` over k (the sum from a zero initial
    value over the one reduced axis). -/
theorem refSum_apply (x : FVec Ideal S2x2048x32000 .f32) (b : Fin 2) (t : Fin 2038) :
    Host.reduceAdd (refExp (tailRows x)) (constant (F := Ideal) S_ .f32 0x00000000#32)
      reducesTo_S2x2038x32000_S2x2038_d2 h_S_ (ix2 b t) = expSum (logitRow x b t) := by
  show Ideal.hostReduceAdd reducesTo_S2x2038x32000_S2x2038_d2 (refExp (tailRows x))
    (Ideal.ofBits .f32 0x00000000#32) (ix2 b t) = _
  rw [Ideal.hostReduceAdd_single reducesTo_S2x2038x32000_S2x2038_d2 reduces_S2x2038x32000_S2x2038_d2,
    Ideal.ofBits_zero_f32, zero_add]
  show ∑ k : Fin 32000, refExp (tailRows x) (reduces_S2x2038x32000_S2x2038_d2.lift (ix2 b t) k)
    = ∑ k : Fin 32000, Ideal.exp (logitRow x b t k - foldMax (logitRow x b t))
  refine Finset.sum_congr rfl fun k _ => ?_
  rw [lift_ix2, refExp_apply]

theorem probs_apply (x : FVec Ideal S2x2048x32000 .f32) (b : Fin 2) (t : Fin 2038) (k : Fin 32000) :
    probs (tailRows x) (ix3 b t k)
      = Ideal.div (Ideal.exp (logitRow x b t k - foldMax (logitRow x b t))) (expSum (logitRow x b t)) := by
  unfold probs Host.divf
  rw [overVocab_apply, refExp_apply, refSum_apply]
  rfl

end Cert.Rows

end
-- ==== Proof.Gather.lean ====
/-
  The integer side at an index: which vocabulary entry `take_along_axis` reads at (b, t, j), and that under the
  stated range of the tokens its in-bounds mask is true everywhere.
-/
import proofs.«419532_j28759101014353_3_alg».proof.Proof.Spec
import Idealize.ShloMosaic.Lib.ValueIdx
import Idealize.ShloMosaic.Lib.ReduceAll
import Idealize.ShloMosaic.Lib.Pipeline.Value

noncomputable section

namespace Cert.Gather

open Cert.Spec Idealize.ShloMosaic Idealize.ShloMosaic.ValueIdx

/-- On a batching axis the batch coordinate of result index (b, t, j) is the result's own coordinate there: axis 0 … -/
theorem batchCoord_zero (b : Fin 2) (t : Fin 2038) (j : Fin 10) : gatherTok.batchCoord (ix3 b t j) 0 = b.val := rfl
/-- … and axis 1. -/
theorem batchCoord_one (b : Fin 2) (t : Fin 2038) (j : Fin 10) : gatherTok.batchCoord (ix3 b t j) 1 = t.val := rfl

/-- The batched gather reads row (b, t) of its operand, at ONE vocabulary index that depends on the index array only. -/
theorem gatherTok_reads (n : IVec S2x2038x10x1 32) (b : Fin 2) (t : Fin 2038) (j : Fin 10) :
    ∃ v : Fin 32000, ∀ y : FVec Ideal S2x2038x32000 .f32, Host.gather gatherTok y n (ix3 b t j) = y (ix3 b t v) := by
  -- the vocabulary index is the operand index's last coordinate; the operand plays no part in it
  refine ⟨⟨(gatherTok.operandIdx (ix3 b t j) n 2).val, (gatherTok.operandIdx (ix3 b t j) n 2).isLt⟩, fun y => ?_⟩
  show y (gatherTok.operandIdx (ix3 b t j) n) = _
  congr 1
  funext a
  match a with
  | ⟨0, _⟩ =>
    -- a batching axis: no start, no offset, the batch coordinate b
    refine Fin.ext ?_
    show gatherTok.start (ix3 b t j) n 0 + gatherTok.batchCoord (ix3 b t j) 0 + gatherTok.offCoord (ix3 b t j) 0 = b.val
    rw [GatherDims.start_batching _ _ _ _ (by decide : (0 : Fin 3) ∈ gatherTok.operandBatchingDims),
      GatherDims.offCoord_eq_zero _ _ _ (fun h => ((GatherDims.mem_sKept _ _).mp h).2 (by decide)), batchCoord_zero,
      Nat.zero_add, Nat.add_zero]
  | ⟨1, _⟩ =>
    -- the other batching axis: the batch coordinate t
    refine Fin.ext ?_
    show gatherTok.start (ix3 b t j) n 1 + gatherTok.batchCoord (ix3 b t j) 1 + gatherTok.offCoord (ix3 b t j) 1 = t.val
    rw [GatherDims.start_batching _ _ _ _ (by decide : (1 : Fin 3) ∈ gatherTok.operandBatchingDims),
      GatherDims.offCoord_eq_zero _ _ _ (fun h => ((GatherDims.mem_sKept _ _).mp h).2 (by decide)), batchCoord_one,
      Nat.zero_add, Nat.add_zero]
  | ⟨2, _⟩ => exact Fin.ext rfl

/-- A left fold by `and` that starts at 1 and meets only 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_ones f l _ (IntOp.andi_eq_one.2 ⟨h, hl a (List.mem_cons_self ..)⟩) fun n hn => hl n (List.mem_cons_of_mem _ hn)

/-- One word: a token in [-32000, 32000), wrapped once by 32000 when negative, lies in [0, 31999]. -/
theorem wrap_in_bounds (a : BitVec 32) (h1 : -32000 ≤ a.toInt) (h2 : a.toInt < 32000) :
    IntOp.cmpi .sge (Scalar.select (IntOp.cmpi .slt a 0#32) (IntOp.addi a 32000#32) a) 0#32 = 1#1 ∧
    IntOp.cmpi .sle (Scalar.select (IntOp.cmpi .slt a 0#32) (IntOp.addi a 32000#32) a) 31999#32 = 1#1 := by
  have h0 : (0#32 : BitVec 32).toInt = 0 := by decide
  have h31999 : (31999#32 : BitVec 32).toInt = 31999 := by decide
  have h32000 : (32000#32 : BitVec 32).toInt = 32000 := by decide
  by_cases hneg : a.toInt < 0
  · -- a negative token: the sum a + 32000 does not wrap around the word and lies in [0, 32000)
    have hc : IntOp.cmpi .slt a 0#32 = 1#1 := IntOp.cmpi_slt.2 (by rw [h0]; exact hneg)
    rw [hc, ValueIdx.select_one]
    have hadd : (IntOp.addi a 32000#32).toInt = a.toInt + 32000 := by
      show (a + 32000#32).toInt = _
      rw [BitVec.toInt_add, h32000]
      exact Int.bmod_eq_of_le (by omega) (by omega)
    exact ⟨IntOp.cmpi_sge.2 (by rw [h0, hadd]; omega), IntOp.cmpi_sle.2 (by rw [h31999, hadd]; omega)⟩
  · -- a nonnegative token is kept
    have hc : IntOp.cmpi .slt a 0#32 = 0#1 :=
      ValueIdx.eq_zero_of_ne_one fun h => hneg (by have := IntOp.cmpi_slt.1 h; rwa [h0] at this)
    rw [hc, ValueIdx.select_zero]
    exact ⟨IntOp.cmpi_sge.2 (by rw [h0]; omega), IntOp.cmpi_sle.2 (by rw [h31999]; omega)⟩

/-- Tokens in [-32000, 32000) wrap into [0, 31999]: the in-bounds mask of the gather is true at every slot. -/
theorem inBounds_of_range (ids : IVec S2x2048 32) (hids : ∀ i, (-32000 : Int) ≤ (ids i).toInt ∧ (ids i).toInt < 32000)
    (i : S2x2038x10.Idx) : inBounds (normIdx (windows ids)) i = 1#1 := by
  -- the reduction is a fold by `and` from 1; every element it can meet is 1
  unfold inBounds
  rw [Host.reduce_eq_foldl]
  refine foldl_andi_ones _ _ _ rfl fun k _ => ?_
  -- the element at k compares the wrapped token of ONE window slot, and every window slot holds a token of `ids`
  have ha := hids (gatherWin.operandIdx (Shape.reshapeEquiv shapeCasts_S2x2038x10_S2x2038x10x1 k) winPos)
  obtain ⟨h1, h2⟩ := wrap_in_bounds _ ha.1 ha.2
  exact IntOp.andi_eq_one.2 ⟨h1, h2⟩

end Cert.Gather

end
-- ==== Proof.Bridge.lean ====
/-
  The two programs' results are one function of the arguments: at every batch b, penalised timestep t and window
  slot j the kernel's `exp (logit - rowmax) · (1 / rowsum)` is the reference's gathered softmax entry
  `exp (logit - rowmax) / rowsum` — the same row, the same gathered entry, the row sum off zero because the logits
  are finite — and the rest of the two programs is the same text.
-/
import proofs.«419532_j28759101014353_3_alg».proof.Proof.Spec
import proofs.«419532_j28759101014353_3_alg».proof.Proof.Rows
import proofs.«419532_j28759101014353_3_alg».proof.Proof.Gather
import Idealize.ShloMosaic.Lib.IdealHost

noncomputable section

namespace Cert.Bridge

open Cert.Spec Cert.Rows Cert.Gather Idealize.ShloMosaic Idealize.ShloMosaic.ValueIdx

/-- The host's exponential at an index is the extended reals' exponential of the element. -/
theorem hostExp_apply {s : Shape} {φ : FTy} (a : FVec Ideal s φ) (i : s.Idx) : Host.exp a i = Ideal.exp (a i) := rfl

/-- Where the in-bounds mask is true, `take_along_axis` reads the gathered entry (the fill pattern plays no part). -/
theorem takeAlong_apply (y : FVec Ideal S2x2038x32000 .f32) (w : IVec S2x2038x10 32) (i : S2x2038x10.Idx)
    (hm : inBounds (normIdx w) i = 1#1) : takeAlong y w i = Host.gather gatherTok y (normIdx w) i := by
  unfold takeAlong
  rw [select_apply, hm, select_one]

/-- The kernel's gathered probability at (b, t, j): the exponential of the gathered logit less the row statistic
    `A1` at (b, t), times the reciprocal of the row statistic `A2` at (b, t). -/
theorem kerGathered_apply (x : FVec Ideal S2x2048x32000 .f32) (w : IVec S2x2038x10 32) (A1 A2 : FVec Ideal S4096x1 .f32)
    (b : Fin 2) (t : Fin 2038) (j : Fin 10) :
    kerGathered x w A1 A2 (ix3 b t j)
      = Ideal.exp (takeAlong (tailRows x) w (ix3 b t j) - statRows A1 (ix2 b t))
          * Ideal.div 1 (statRows A2 (ix2 b t)) := by
  unfold kerGathered
  rw [mulf_apply, hostExp_apply, subf_apply, overSlots_apply, overSlots_apply, hostDivf_apply,
    broadcastInDim_scalar_apply, constant_apply, Ideal.ofBits_one_f32]

/-- Slot by slot, the kernel's gathered probability is the reference's. -/
theorem kerGathered_eq (x : FVec Ideal S2x2048x32000 .f32) (ids : IVec S2x2048 32)
    (hfin : ∀ i, x i ≠ ⊤ ∧ x i ≠ ⊥) (hids : ∀ i, (-32000 : Int) ≤ (ids i).toInt ∧ (ids i).toInt < 32000) :
    kerGathered x (windows ids) (rowMaxArr (flatRows x)) (rowSumArr (flatRows x))
      = takeAlong (probs (tailRows x)) (windows ids) := by
  funext i
  obtain ⟨b, t, j, rfl⟩ : ∃ (b : Fin 2) (t : Fin 2038) (j : Fin 10), i = ix3 b t j := ⟨i 0, i 1, i 2, eq_ix3 i⟩
  -- both gathers read row (b, t) at one vocabulary index v, and the mask is true there
  obtain ⟨v, hv⟩ := gatherTok_reads (normIdx (windows ids)) b t j
  have hm := inBounds_of_range ids hids (ix3 b t j)
  have hrow : ∀ k, logitRow x b t k ≠ ⊤ ∧ logitRow x b t k ≠ ⊥ :=
    fun k => hfin (ix3 b (⟨t.val + 10, by omega⟩ : Fin 2048) k)
  rw [kerGathered_apply, takeAlong_apply (tailRows x) (windows ids) (ix3 b t j) hm,
    takeAlong_apply (probs (tailRows x)) (windows ids) (ix3 b t j) hm, hv (tailRows x), hv (probs (tailRows x)),
    tailRows_apply, statRows_rowMax, statRows_rowSum, probs_apply]
  -- the row sum is not zero, so multiplying by its reciprocal is dividing by it
  exact mul_div_one _ _ (expSum_ne_zero (by decide) _ hrow)

/-- The kernel's result, from the row maxima and row sums its pallas_call leaves, is the reference's. -/
theorem ker_eq_ref (x : FVec Ideal S2x2048x32000 .f32) (ids : IVec S2x2048 32)
    (hfin : ∀ i, x i ≠ ⊤ ∧ x i ≠ ⊥) (hids : ∀ i, (-32000 : Int) ≤ (ids i).toInt ∧ (ids i).toInt < 32000) :
    kerTerm x ids (rowMaxArr (flatRows x)) (rowSumArr (flatRows x)) = refTerm x ids := by
  unfold kerTerm refTerm
  rw [kerGathered_eq x ids hfin hids]

end Cert.Bridge

end
-- ==== Proof.PreDecode.lean ====
import proofs.«419532_j28759101014353_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate
import Mathlib.Order.Defs.PartialOrder
import Mathlib.Order.MinMax
import Mathlib.Data.EReal.Operations

/-!
# The printed precondition, read back pointwise

The precondition is the conjunction of two `jnp.all`s: every entry of the float array has
absolute value strictly below `+∞`, and every word of the integer array lies in the signed
range `[-32000, 32000)`. Each `jnp.all` is a reduction by `and` to a single word; when that word
is `1`, every element of the reduced mask is `1`, and an element of the mask being `1` is the
comparison it was computed from.
-/

namespace Cert.PreDecode

open Idealize.ShloMosaic

variable [Cert.Pre_finite_inputs.Facts]

/-- The result of a reduction over all axes has one index. -/
instance : Subsingleton Cert.Pre_finite_inputs.S_.Idx := ⟨fun a b => funext fun d => d.elim0⟩

/-- The pattern the float mask compares against is `+∞`. -/
theorem ofBits_inf : Ideal.ofBits .f32 0x7F800000#32 = ⊤ := by simp [Ideal.ofBits, Ideal.ieee]

/-- An extended real whose absolute value `max a (-a)` lies strictly below `+∞` is neither infinity:
    `a < ⊤` excludes `⊤`, and `-a < ⊤` excludes `⊥` since `-⊥ = ⊤`. -/
theorem ne_top_bot_of_abs_lt_top (a : EReal) (ha : max a (-a) < ⊤) : a ≠ ⊤ ∧ a ≠ ⊥ := by
  obtain ⟨h1, h2⟩ := max_lt_iff.1 ha
  refine ⟨ne_of_lt h1, ?_⟩
  rintro rfl
  rw [EReal.neg_bot] at h2
  exact lt_irrefl _ h2

/-- The two signed bounds, as integers. -/
theorem toInt_lo : (4294935296#32 : BitVec 32).toInt = -32000 := by decide
theorem toInt_hi : (32000#32 : BitVec 32).toInt = 32000 := by decide

/-- Every entry of the float array is a real number: the first `jnp.all` is `1`, so the mask
    `|x| < +∞` is `1` at every index. -/
theorem finite_of_pre (x : FVec Ideal Cert.Pre_finite_inputs.S2x2048x32000 .f32) (ids : IVec Cert.Pre_finite_inputs.S2x2048 32)
    (h : Cert.Pre_finite_inputs.fn (F := Ideal) x ids = fun _ => 1#1) : ∀ i, x i ≠ ⊤ ∧ x i ≠ ⊥ := by
  intro i
  have h0 := congrFun h ValueIdx.ix0
  dsimp only [Cert.Pre_finite_inputs.fn] at h0
  have hx := (IntOp.andi_eq_one.1 h0).1
  have hi := Host.reduce_andi_all _ _ _ _ _ hx i
  -- the mask at `i`: the broadcast scalar read at any index is the scalar
  change Ideal.cmp .olt (max (x i) (-(x i))) (Ideal.ofBits .f32 0x7F800000#32) = 1#1 at hi
  rw [ofBits_inf] at hi
  simp only [Ideal.cmp, StableHlo.Predicate.ofBool_eq_one_iff, decide_eq_true_eq] at hi
  exact ne_top_bot_of_abs_lt_top (x i) hi

/-- Every word of the integer array lies in the signed range `[-32000, 32000)`: the second `jnp.all`
    is `1`, so both signed comparisons are `1` at every index. -/
theorem ids_of_pre (x : FVec Ideal Cert.Pre_finite_inputs.S2x2048x32000 .f32) (ids : IVec Cert.Pre_finite_inputs.S2x2048 32)
    (h : Cert.Pre_finite_inputs.fn (F := Ideal) x ids = fun _ => 1#1) : ∀ i, (-32000 : Int) ≤ (ids i).toInt ∧ (ids i).toInt < 32000 := by
  intro i
  have h0 := congrFun h ValueIdx.ix0
  dsimp only [Cert.Pre_finite_inputs.fn] at h0
  have hx := (IntOp.andi_eq_one.1 h0).2
  have hi := Host.reduce_andi_all _ _ _ _ _ hx i
  -- the mask at `i`: each broadcast bound read at any index is the bound
  change IntOp.andi (IntOp.cmpi .sge (ids i) 4294935296#32) (IntOp.cmpi .slt (ids i) 32000#32) = 1#1 at hi
  obtain ⟨hge, hlt⟩ := IntOp.andi_eq_one.1 hi
  rw [IntOp.cmpi_sge, toInt_lo] at hge
  rw [IntOp.cmpi_slt, toInt_hi] at hlt
  exact ⟨hge, hlt⟩

end Cert.PreDecode
-- ==== Proof.lean ====
/-
  The certificate of `Cert.Claim`: the two kernel programs' frames, the reference's frame, the (empty) ledger, and the
  equivalence of the idealized kernel and the idealized reference over the extended reals.

  Precondition: every logit finite and every token in [-32000, 32000), the range on which `take_along_axis` over a
  vocabulary of 32000 is defined (a negative token wraps once).  Both programs gather, per batch b, penalised timestep
  t and window slot j, the softmax probability of the token at that slot under the logits row (b, t + 10); the
  reference divides the whole row by its sum of exponentials first, the kernel takes the row maximum and the row sum
  from its pallas_call and multiplies the gathered exponential by the reciprocal of the sum.  The sum is at least 1
  (the entry attaining the maximum contributes exp 0), so the two are one extended real; everything after that is the
  same text in both programs.
-/
import proofs.«419532_j28759101014353_3_alg».proof.Defs
import proofs.«419532_j28759101014353_3_alg».proof.Proof.Gen.Kernel
import proofs.«419532_j28759101014353_3_alg».proof.Proof.Gen.KernelIdeal
import proofs.«419532_j28759101014353_3_alg».proof.Proof.Gen.ReferenceIdeal
import proofs.«419532_j28759101014353_3_alg».proof.Proof.Gen.Pre_finite_inputs
import proofs.«419532_j28759101014353_3_alg».proof.Proof.FrameK
import proofs.«419532_j28759101014353_3_alg».proof.Proof.FrameKI
import proofs.«419532_j28759101014353_3_alg».proof.Proof.RefRun
import proofs.«419532_j28759101014353_3_alg».proof.Proof.RefValue
import proofs.«419532_j28759101014353_3_alg».proof.Proof.KernelTail
import proofs.«419532_j28759101014353_3_alg».proof.Proof.KernelValue
import proofs.«419532_j28759101014353_3_alg».proof.Proof.Bridge
import proofs.«419532_j28759101014353_3_alg».proof.Proof.PreDecode

noncomputable section

namespace Cert.Proof

open Idealize.ShloMosaic Idealize.ShloMosaic.TcCoe Idealize.SL.Sem

theorem frame_k : Cert.frame_Kernel := fun m ρ _ => Cert.Kernel.Frm.frame m ρ

theorem frame_ki : Cert.frame_KernelIdeal := fun m ρ _ => Cert.KernelIdeal.Frm.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the specification's reference term of the (agreeing) arguments in their result buffer. -/
theorem algebraic : Cert.algebraic_KernelIdeal_ReferenceIdeal := by
  intro m ρ m' ρ' hpre hagree
  refine ⟨fun c => Cert.Spec.refTerm (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Frm.run_main (F := Ideal) m ρ)
    · refine ((h c).2 Cert.KernelIdeal.main_v47 (Pipeline.mem_restRefs_of Cert.KernelIdeal.main_v47 (by decide) (by decide))).trans ?_
      rw [Cert.KernelIdeal.Tail.result (F := Ideal) m c, Cert.KernelIdeal.KValue.rowmax_final m c,
        Cert.KernelIdeal.KValue.rowsum_final m c]
      exact Cert.Bridge.ker_eq_ref _ _ (Cert.PreDecode.finite_of_pre _ _ (hpre c)) (Cert.PreDecode.ids_of_pre _ _ (hpre c))
    · exact ((h c).2 Cert.KernelIdeal.main_arg0 (Pipeline.mem_restRefs_of Cert.KernelIdeal.main_arg0 (by decide) (by decide))).trans
        (Cert.KernelIdeal.Frm.W_main_arg0 m (Cert.KernelIdeal.Frm.dats m) c)
    · exact ((h c).2 Cert.KernelIdeal.main_arg1 (Pipeline.mem_restRefs_of Cert.KernelIdeal.main_arg1 (by decide) (by decide))).trans
        (Cert.KernelIdeal.Frm.W_main_arg1 m (Cert.KernelIdeal.Frm.dats m) c)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.result]
    exact congrArg₂ (Cert.Spec.refTerm (F := Ideal)) (hagree c).1 (hagree c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
